-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x128 : Shape := ⟨2, ![1, 128]⟩
abbrev S2048x128 : Shape := ⟨2, ![2048, 128]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S1x128, .f32⟩
  | .hbm, ⟨8, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x128, .f32⟩
  | .local _ .vmem, ⟨8, _⟩ => ⟨S2048x128, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S8192x1_S8192x128_0_1 : S8192x1.BroadcastsInDim S8192x128 (![0, 1] : Fin 2 → Fin S8192x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  dot_S1024x2048_S2048x128_S1024x128_1_0_0_1_n_n_wf : DotDims.WF S1024x2048 S2048x128 S1024x128 [1] [0] [0] [1] [] []
  dot_S1024x128_S128x128_S1024x128_1_1_0_0_n_n_wf : DotDims.WF S1024x128 S128x128 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x128, .f32⟩
  | .hbm, ⟨22, _⟩ => ⟨S128x128, .f32⟩
  | .hbm, ⟨23, _⟩ => ⟨S8192x128, .f32⟩
  | .hbm, ⟨24, _⟩ => ⟨S1x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x128, .f32⟩
  | .hbm, ⟨36, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.K.Reg0Runs.lean ====
/-
  Region 0 (the row-sum kernel) of the program: the branch conditions of its body decided over the grid, where its
  output window is idle, and the body's run in each of the three control cases — the first column block of a row
  block (the accumulator is reset, then the block's row sums are added), a middle one (added only), the last one
  (added, then the reciprocal square root of the accumulated degree plus one is stored to the output block).
-/
import proofs.«114102_j90838558311239_1_alg».proof.Proof.Gen.Kernel.Launch
import proofs.«114102_j90838558311239_1_alg».proof.Proof.Gen.Kernel.Skeleton
import proofs.«114102_j90838558311239_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "this is the first column block": the grid's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "this is the last column block": the grid's second coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S1024x1 .f32 := (Memref.whole cc0_stg1_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a scratch buffer of the kernel's own, carried from point to point. -/
abbrev scM0_0 : Memref sig .tc .vmem S1024x1 .f32 := Memref.whole cc0_scratch0
abbrev VS0_0 : View sig .tc .vmem S1024x1 .f32 := scM0_0.view

/-! ## The body's run, case by case -/

set_option maxHeartbeats 1000000 in
/-- First column block: the accumulator (at anything) is zeroed and the block's row sums added; the output block is
    handed back untouched. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block's row sums are added to the accumulator as the point before left it. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The last column block: the block's row sums are added, and the output block is stored from the accumulator. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Reg0

end
-- ==== Proof.K.Reg0Frame.lean ====
/-
  Region 0 (the row-sum kernel): what its accumulator and its output block hold after each grid point, the region's
  invariant (the accumulator at the contents the point before left), the pipeline's proof data at the contents `V`
  the region is entered from, and the body obligation at every point.
-/
import proofs.«114102_j90838558311239_1_alg».proof.Proof.K.Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- The accumulator after a first column block. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- The accumulator after a middle column block. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- The output block after a last column block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- The accumulator after a last column block. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## The accumulation, point by point -/

/-- The accumulator after the body at position `n`: reset and one block's row sums at a first column block, the
    point before's contents plus this block's row sums otherwise. -/
def accAt0 (c : Dev nD) : (n : ℕ) → n < cfg0.N → Vec F S1024x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (accAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (accAt0 c n (Nat.lt_of_succ_lt hn))

theorem accAt0_A (c : Dev nD) (t : Fin cfg0.N) (h0 : t.val % 4 = 0) (hc0 : cond0_0 (grid0.coords t)) (hc1 : ¬cond0_1 (grid0.coords t)) :
    accAt0 V c t.val t.isLt = sout0_A_0 c (grid0.coords t) (ms0_0 t) (hs0_0 t) (ms0_1 t) (hs0_1 t) scM0_0 (Memref.isWhole_whole _) hc0 hc1 (iblk0 V c 0 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) (hc0 : ¬cond0_0 (grid0.coords t)) (hc1 : ¬cond0_1 (grid0.coords t)) :
    accAt0 V c t.val t.isLt = sout0_B_0 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) (hc0 : ¬cond0_0 (grid0.coords t)) (hc1 : cond0_1 (grid0.coords t)) :
    accAt0 V c t.val t.isLt = sout0_C_0 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what the case stores; a
    placeholder elsewhere (the window is idle there and not written back). -/
def outAt0 (c : Dev nD) (t : Fin cfg0.N) : Vec F S1024x1 .f32 :=
  if h1 : t.val % 4 = 3 then
    out0_C_1 c (grid0.coords t) (ms0_0 t) (hs0_0 t) (ms0_1 t) (hs0_1 t) scM0_0 (Memref.isWhole_whole _) (fun h => (fun h => by omega) ((hcond0_0 t).mp h)) ((hcond0_1 t).mpr h1) (iblk0 V c 0 t) (accAt0 V c (t.val - 1) (Nat.lt_of_le_of_lt (Nat.sub_le _ _) t.isLt))
  else VO0_1.read (Elt F) VO0_1.junk

theorem outAt0_C (c : Dev nD) (t : Fin cfg0.N) (h1 : t.val % 4 = 3) (hc0 : ¬cond0_0 (grid0.coords t)) (hc1 : cond0_1 (grid0.coords t)) :
    outAt0 V c t = out0_C_1 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  unfold outAt0; exact (dif_pos h1).trans rfl

/-! ## The region's invariant -/

/-- The core's scoped buffers other than the accumulator that are no staging buffer of this region, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- Before position `n`: at the start what the launch hands every region; afterwards the accumulator at what the
    point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)) ∗ rest0 (F := F) c ∗ (∃ r, prngReg c r)) := by
  cases n with
  | zero => exact absurd rfl hz
  | succ n => rfl

/-- Separating conjunction re-associated, as an equation. -/
theorem sep_assoc_eq (S R G : sProp 𝕄) : (iprop((S ∗ R) ∗ G) : sProp 𝕄) = iprop(S ∗ R ∗ G) := by
  have h₁ : (iprop((S ∗ R) ∗ G) : sProp 𝕄) ⊢ iprop(S ∗ R ∗ G) := by
    iintro ⟨⟨HS, Hr⟩, Hg⟩
    isplitl [HS]; · iexact HS
    isplitl [Hr]; · iexact Hr
    iexact Hg
  have h₂ : (iprop(S ∗ R ∗ G) : sProp 𝕄) ⊢ iprop((S ∗ R) ∗ G) := by
    iintro ⟨HS, Hr, Hg⟩
    isplitr [Hg]
    · isplitl [HS]; · iexact HS
      iexact Hr
    iexact Hg
  exact BI.equiv_iff.mp ⟨h₁, h₂⟩

/-- What the launch hands the region, with the accumulator singled out. -/
theorem PhiA0_eq (c : Dev nD) :
    (Pipeline.ΦA spec0 c : sProp 𝕄)
      = iprop((∃ d, owns (c : Thread nD τ) scM0_0 fullShare d) ∗ rest0 (F := F) c ∗ (∃ r, prngReg c r)) := by
  unfold Pipeline.ΦA; rw [scopedRest0_eq]; simp only [scM0_0, owns_whole]; unfold rest0
  exact sep_assoc_eq _ _ _

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [accAt0_A V c t h0 hc0 hc1]
    unfold sout0_A_0; (try dsimp only)
    by_cases hz : t.val = 0
    · rw [PhiS0_castSucc V c t, PhiS0_zero V c _ _ hz, PhiA0_eq]
      iintro ⟨⟨HS0, Hr, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt0_C V c t h0 h1 hc0 hc1, outAt0_C V c t h1 hc0 hc1]
      unfold out0_C_1 sout0_C_0; (try dsimp only)
      rw [PhiS0_castSucc V c t, PhiS0_pos V c _ _ hz]
      iintro ⟨⟨HS0, Hr, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0]
        · unfold owns; iexists _; isplitr
          swap; · iexact HS0
          ipureintro; exact View.read_writes_of_cover _ _ _ _ _ (scover0_C_0 c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [accAt0_B V c t h0 h1 hc0 hc1]
      unfold sout0_B_0; (try dsimp only)
      rw [PhiS0_castSucc V c t, PhiS0_pos V c _ _ hz]
      iintro ⟨⟨HS0, Hr, Hg⟩, Ho, ⟨%d0, H0⟩, ⟨%d1, H1⟩⟩
      iapply ((kernelRun0_B c (grid0.coords t) _ _ _ _ _ _ hc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _)
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨HS0, Hr, Hg⟩
  isplitl [HS0]
  · iexists _; iexact HS0
  isplitl [Hr]; · iexact Hr
  iexact Hg

end Cert.Kernel.Reg0

end
-- ==== Proof.K.Reg1Runs.lean ====
/-
  Region 1 (the aggregation kernel) of the program: the branch conditions of its body decided over the grid, where its
  output window is idle, and the body's run in each of the three control cases — the first column block of a row
  block (the accumulator is reset, then the block product adj·y added), a middle one (added only), the last one
  (added; then the self-loop term, the scaling by the row's inverse square-root degree, the linear layer, the bias
  and the row normalisation are computed from the accumulator and stored to the output block).
-/
import proofs.«114102_j90838558311239_1_alg».proof.Proof.Gen.Kernel.Launch
import proofs.«114102_j90838558311239_1_alg».proof.Proof.Gen.Kernel.Skeleton
import proofs.«114102_j90838558311239_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "this is the first column block": the grid's second coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "this is the last column block": the grid's second coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

abbrev VO1_6 : View sig .tc .vmem S1024x128 .f32 := (Memref.whole cc1_stg6_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a scratch buffer of the kernel's own, carried from point to point. -/
abbrev scM1_0 : Memref sig .tc .vmem S1024x128 .f32 := Memref.whole cc1_scratch0
abbrev VS1_0 : View sig .tc .vmem S1024x128 .f32 := scM1_0.view

/-! ## The body's run, case by case -/

set_option maxHeartbeats 1000000 in
/-- First column block: the accumulator (at anything) is zeroed and the block product added. Only the adjacency block,
    the y block and the accumulator are touched. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block product is added to the accumulator as the point before left it. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 2000000 in
/-- The last column block: the block product is added, and the output block is stored from the accumulator, the
    degree block, the feature block, the weights and the bias. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Reg1

end
-- ==== Proof.K.Reg1Frame.lean ====
/-
  Region 1 (the aggregation kernel): what its accumulator and its output block hold after each grid point, the
  region's invariant (the accumulator at the contents the point before left), the pipeline's proof data at the
  contents `V` the region is entered from, and the body obligation at every point.
-/
import proofs.«114102_j90838558311239_1_alg».proof.Proof.K.Reg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (y : S1024x128.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S1024x128.size (by sl_kernel_rfl) y

/-- The accumulator after a first column block. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1).1)

theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 xs0).1, y ∈ pc.1.set :=
  View.cover_of_tiledL (kernelRun1_B c i arg2 harg2 arg3 harg3 arg4 harg4 arg5 harg5 arg6 harg6 arg7 harg7 arg8 harg8 arg9 harg9 hc0 hc1 x0 x1 xs0).1 S1024x128.size (by sl_kernel_rfl) y

/-- The accumulator after a middle column block. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 xs0).1)

theorem cover1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- The output block after a last column block. -/
def out1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- The accumulator after a last column block. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## The accumulation, point by point -/

/-- The accumulator after the body at position `n`: reset and one block product at a first column block, the point
    before's contents plus this block product otherwise. -/
def accAt1 (c : Dev nD) : (n : ℕ) → n < cfg1.N → Vec F S1024x128 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩)
    else
      if h1 : (n + 1) % 4 = 3 then
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (accAt1 c n (Nat.lt_of_succ_lt hn))
      else
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (hc0 : cond1_0 (grid1.coords t)) (hc1 : ¬cond1_1 (grid1.coords t)) :
    accAt1 V c t.val t.isLt = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) (hc0 : ¬cond1_0 (grid1.coords t)) (hc1 : ¬cond1_1 (grid1.coords t)) :
    accAt1 V c t.val t.isLt = sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) (hc0 : ¬cond1_0 (grid1.coords t)) (hc1 : cond1_1 (grid1.coords t)) :
    accAt1 V c t.val t.isLt = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what the case stores; a
    placeholder elsewhere (the window is idle there and not written back). -/
def outAt1 (c : Dev nD) (t : Fin cfg1.N) : Vec F S1024x128 .f32 :=
  if h1 : t.val % 4 = 3 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => (fun h => by omega) ((hcond1_0 t).mp h)) ((hcond1_1 t).mpr h1) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_6.read (Elt F) VO1_6.junk

theorem outAt1_C (c : Dev nD) (t : Fin cfg1.N) (h1 : t.val % 4 = 3) (hc0 : ¬cond1_0 (grid1.coords t)) (hc1 : cond1_1 (grid1.coords t)) :
    outAt1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold outAt1; exact (dif_pos h1).trans rfl

/-! ## The region's invariant -/

/-- The core's scoped buffers other than the accumulator that are no staging buffer of this region, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

def PhiS1 (c : Dev nD) : (n : ℕ) → n ≤ cfg1.N → sProp 𝕄
  | 0, _ => Pipeline.ΦA spec1 c
  | n + 1, hn => iprop(owns (c : Thread nD τ) scM1_0 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (accAt1 V c (n - 1) (by omega)) ∗ rest1 (F := F) c ∗ (∃ r, prngReg c r)) := by
  cases n with
  | zero => exact absurd rfl hz
  | succ n => rfl

/-- What the launch hands the region, with the accumulator (the last of the scoped buffers listed) singled out. -/
theorem PhiA1_eq (c : Dev nD) :
    (Pipeline.ΦA spec1 c : sProp 𝕄)
      = iprop((∃ d, owns (c : Thread nD τ) scM1_0 fullShare d) ∗ rest1 (F := F) c ∗ (∃ r, prngReg c r)) := by
  unfold Pipeline.ΦA; rw [scopedRest1_eq]; simp only [scM1_0, owns_whole]; unfold rest1
  have h₁ : ∀ (a b d e g S G : sProp 𝕄), (iprop((a ∗ b ∗ d ∗ e ∗ g ∗ S) ∗ G) : sProp 𝕄) ⊢ iprop(S ∗ (a ∗ b ∗ d ∗ e ∗ g) ∗ G) := by
    intro a b d e g S G
    iintro ⟨⟨Ha, Hb, Hd, He, Hg', HS⟩, HG⟩
    isplitl [HS]; · iexact HS
    isplitr [HG]
    · isplitl [Ha]; · iexact Ha
      isplitl [Hb]; · iexact Hb
      isplitl [Hd]; · iexact Hd
      isplitl [He]; · iexact He
      iexact Hg'
    iexact HG
  have h₂ : ∀ (a b d e g S G : sProp 𝕄), (iprop(S ∗ (a ∗ b ∗ d ∗ e ∗ g) ∗ G) : sProp 𝕄) ⊢ iprop((a ∗ b ∗ d ∗ e ∗ g ∗ S) ∗ G) := by
    intro a b d e g S G
    iintro ⟨HS, ⟨Ha, Hb, Hd, He, Hg'⟩, HG⟩
    isplitr [HG]
    · isplitl [Ha]; · iexact Ha
      isplitl [Hb]; · iexact Hb
      isplitl [Hd]; · iexact Hd
      isplitl [He]; · iexact He
      isplitl [Hg']; · iexact Hg'
      iexact HS
    iexact HG
  exact BI.equiv_iff.mp ⟨h₁ _ _ _ _ _ _ _, h₂ _ _ _ _ _ _ _⟩

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [accAt1_A V c t h0 hc0 hc1]
    unfold sout1_A_0; (try dsimp only)
    by_cases hz : t.val = 0
    · rw [PhiS1_castSucc V c t, PhiS1_zero V c _ _ hz, PhiA1_eq]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      rw [accAt1_C V c t h0 h1 hc0 hc1, outAt1_C V c t h1 hc0 hc1]
      unfold out1_C_6 sout1_C_0; (try dsimp only)
      rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6 t hc1) (noFlush1_6 t hc1)]
      rw [accAt1_B V c t h0 h1 hc0 hc1]
      unfold sout1_B_0; (try dsimp only)
      rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨HS0, Hr, Hg⟩
  isplitl [HS0]
  · iexists _; iexact HS0
  isplitl [Hr]; · iexact Hr
  iexact Hg

end Cert.Kernel.Reg1

end
-- ==== Proof.K.Run.lean ====
/-
  The program's run: @main is region 0 (the row-sum kernel), three host operations (the inverse square-root degrees
  broadcast along the features, the features scaled by them, the bias reshaped to a row) and region 1 (the
  aggregation kernel). The buffers' contents at each boundary are folded from the launch memory; each region's
  proof data is taken at the contents the region is entered from; the launch over the three segments ends with
  every unscoped buffer at the last boundary's contents.
-/
import proofs.«114102_j90838558311239_1_alg».proof.Proof.K.Reg0Frame
import proofs.«114102_j90838558311239_1_alg».proof.Proof.K.Reg1Frame

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Reg0 Cert.Kernel.Reg1

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄) ∗ Pipeline.scopedRest spec0 c) := by
      unfold Pipeline.ΦA
      iintro ⟨Hr, Hp⟩
      isplitl [Hp]; · iexact Hp
      isplitr; · iempintro
      iexact Hr
    exact (hout0 (V0 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄) ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of the TensorCore ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched, and the result's buffer holds what region 1 leaves -/

/-- No host operation writes `b`: its contents pass through the host stretch. -/
theorem W2_of_not_written (c : Dev nD) (b : Ref sig .tc) (hb : b ∉ ([main_v1, main_v2, main_v3] : List (Ref sig .tc))) :
    W2 m c (Proc.devRef .tc b) = W1 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne (fun h => hb (by rw [h]; simp))
    · exact StableHlo.devRef_ne_of_ne (fun h => hb (by rw [h]; simp))
    · exact StableHlo.devRef_ne_of_ne (fun h => hb (by rw [h]; simp))))

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 3).trans (((dat1 (V2 m) c).arrAt_in 3 rfl _).trans (A_eq1 (V2 m) c 3))
    _ = W1 m c (Proc.devRef .tc main_arg0) := W2_of_not_written m c main_arg0 (by decide)
    _ = W0 m c (Proc.devRef .tc main_arg0) := W1_of_ne m c main_arg0 (by decide)
    _ = m ((c : Thread nD τ).loc main_arg0) := rfl

theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_not_written m c main_arg1 (by decide)
    _ = m ((c : Thread nD τ).loc main_arg1) := W1_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 4).trans (((dat1 (V2 m) c).arrAt_in 4 rfl _).trans (A_eq1 (V2 m) c 4))
    _ = W1 m c (Proc.devRef .tc main_arg2) := W2_of_not_written m c main_arg2 (by decide)
    _ = W0 m c (Proc.devRef .tc main_arg2) := W1_of_ne m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_not_written m c main_arg3 (by decide)
    _ = W0 m c (Proc.devRef .tc main_arg3) := W1_of_ne m c main_arg3 (by decide)
    _ = m ((c : Thread nD τ).loc main_arg3) := rfl

/-- The result's buffer at the end: what region 1's pipeline leaves in its output array. -/
theorem W3_main_v4 (c : Dev nD) : W3 m c (Proc.devRef .tc main_v4) = (dat1 (V2 m) c).arrAt 6 cfg1.N := W3_arr m c 6

/-- The run with the frame's post and the result's buffer named. -/
theorem run_main : θ_run defs (onTc (τ := τ) (main (F := F))) ⟨m, fun _ => 0, ρ⟩ (fun r => ∀ c : Dev nD,
      r.2.mem ((c.tc : Thread nD τ).loc main_v4) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.Kernel.Run

end
-- ==== Proof.KI.Reg0Runs.lean ====
/-
  Region 0 (the row-sum kernel) of the program: the branch conditions of its body decided over the grid, where its
  output window is idle, and the body's run in each of the three control cases — the first column block of a row
  block (the accumulator is reset, then the block's row sums are added), a middle one (added only), the last one
  (added, then the reciprocal square root of the accumulated degree plus one is stored to the output block).
-/
import proofs.«114102_j90838558311239_1_alg».proof.Proof.Gen.KernelIdeal.Launch
import proofs.«114102_j90838558311239_1_alg».proof.Proof.Gen.KernelIdeal.Skeleton
import proofs.«114102_j90838558311239_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "this is the first column block": the grid's second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "this is the last column block": the grid's second coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S1024x1 .f32 := (Memref.whole cc0_stg1_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a scratch buffer of the kernel's own, carried from point to point. -/
abbrev scM0_0 : Memref sig .tc .vmem S1024x1 .f32 := Memref.whole cc0_scratch0
abbrev VS0_0 : View sig .tc .vmem S1024x1 .f32 := scM0_0.view

/-! ## The body's run, case by case -/

set_option maxHeartbeats 1000000 in
/-- First column block: the accumulator (at anything) is zeroed and the block's row sums added; the output block is
    handed back untouched. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block's row sums are added to the accumulator as the point before left it. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The last column block: the block's row sums are added, and the output block is stored from the accumulator. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Reg0

end
-- ==== Proof.KI.Reg0Frame.lean ====
/-
  Region 0 (the row-sum kernel): what its accumulator and its output block hold after each grid point, the region's
  invariant (the accumulator at the contents the point before left), the pipeline's proof data at the contents `V`
  the region is entered from, and the body obligation at every point.
-/
import proofs.«114102_j90838558311239_1_alg».proof.Proof.KI.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- The accumulator after a first column block. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- The accumulator after a middle column block. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- The output block after a last column block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- The accumulator after a last column block. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## The accumulation, point by point -/

/-- The accumulator after the body at position `n`: reset and one block's row sums at a first column block, the
    point before's contents plus this block's row sums otherwise. -/
def accAt0 (c : Dev nD) : (n : ℕ) → n < cfg0.N → Vec F S1024x1 .f32
  | 0, hn => sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (accAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (accAt0 c n (Nat.lt_of_succ_lt hn))

theorem accAt0_A (c : Dev nD) (t : Fin cfg0.N) (h0 : t.val % 4 = 0) (hc0 : cond0_0 (grid0.coords t)) (hc1 : ¬cond0_1 (grid0.coords t)) :
    accAt0 V c t.val t.isLt = sout0_A_0 c (grid0.coords t) (ms0_0 t) (hs0_0 t) (ms0_1 t) (hs0_1 t) scM0_0 (Memref.isWhole_whole _) hc0 hc1 (iblk0 V c 0 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) (hc0 : ¬cond0_0 (grid0.coords t)) (hc1 : ¬cond0_1 (grid0.coords t)) :
    accAt0 V c t.val t.isLt = sout0_B_0 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) (hc0 : ¬cond0_0 (grid0.coords t)) (hc1 : cond0_1 (grid0.coords t)) :
    accAt0 V c t.val t.isLt = sout0_C_0 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what the case stores; a
    placeholder elsewhere (the window is idle there and not written back). -/
def outAt0 (c : Dev nD) (t : Fin cfg0.N) : Vec F S1024x1 .f32 :=
  if h1 : t.val % 4 = 3 then
    out0_C_1 c (grid0.coords t) (ms0_0 t) (hs0_0 t) (ms0_1 t) (hs0_1 t) scM0_0 (Memref.isWhole_whole _) (fun h => (fun h => by omega) ((hcond0_0 t).mp h)) ((hcond0_1 t).mpr h1) (iblk0 V c 0 t) (accAt0 V c (t.val - 1) (Nat.lt_of_le_of_lt (Nat.sub_le _ _) t.isLt))
  else VO0_1.read (Elt F) VO0_1.junk

theorem outAt0_C (c : Dev nD) (t : Fin cfg0.N) (h1 : t.val % 4 = 3) (hc0 : ¬cond0_0 (grid0.coords t)) (hc1 : cond0_1 (grid0.coords t)) :
    outAt0 V c t = out0_C_1 c (grid0.coords t) (ms0_0 t) (hs0_0 t) (ms0_1 t) (hs0_1 t) scM0_0 (Memref.isWhole_whole _) hc0 hc1 (iblk0 V c 0 t) (accAt0 V c (t.val - 1) (Nat.lt_of_le_of_lt (Nat.sub_le _ _) t.isLt)) := by
  unfold outAt0; exact (dif_pos h1).trans rfl

/-! ## The region's invariant -/

/-- The core's scoped buffers other than the accumulator that are no staging buffer of this region, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- Before position `n`: at the start what the launch hands every region; afterwards the accumulator at what the
    point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)) ∗ rest0 (F := F) c ∗ (∃ r, prngReg c r)) := by
  cases n with
  | zero => exact absurd rfl hz
  | succ n => rfl

/-- Separating conjunction re-associated, as an equation. -/
theorem sep_assoc_eq (S R G : sProp 𝕄) : (iprop((S ∗ R) ∗ G) : sProp 𝕄) = iprop(S ∗ R ∗ G) := by
  have h₁ : (iprop((S ∗ R) ∗ G) : sProp 𝕄) ⊢ iprop(S ∗ R ∗ G) := by
    iintro ⟨⟨HS, Hr⟩, Hg⟩
    isplitl [HS]; · iexact HS
    isplitl [Hr]; · iexact Hr
    iexact Hg
  have h₂ : (iprop(S ∗ R ∗ G) : sProp 𝕄) ⊢ iprop((S ∗ R) ∗ G) := by
    iintro ⟨HS, Hr, Hg⟩
    isplitr [Hg]
    · isplitl [HS]; · iexact HS
      iexact Hr
    iexact Hg
  exact BI.equiv_iff.mp ⟨h₁, h₂⟩

/-- What the launch hands the region, with the accumulator singled out. -/
theorem PhiA0_eq (c : Dev nD) :
    (Pipeline.ΦA spec0 c : sProp 𝕄)
      = iprop((∃ d, owns (c : Thread nD τ) scM0_0 fullShare d) ∗ rest0 (F := F) c ∗ (∃ r, prngReg c r)) := by
  unfold Pipeline.ΦA; rw [scopedRest0_eq]; simp only [scM0_0, owns_whole]; unfold rest0
  exact sep_assoc_eq _ _ _

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [accAt0_A V c t h0 hc0 hc1]
    unfold sout0_A_0; (try dsimp only)
    by_cases hz : t.val = 0
    · rw [PhiS0_castSucc V c t, PhiS0_zero V c _ _ hz, PhiA0_eq]
      iintro ⟨⟨HS0, Hr, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) _ _ _ _ _ _ hc0 hc1 (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _)
        isplitl [Hr]; · iexact Hr
        iexact Hg
      isplitl [Ho]; · iexact Ho
      isplitl [H0]; · iexact H0
      iexists _; iexact H1
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt0_C V c t h0 h1 hc0 hc1, outAt0_C V c t h1 hc0 hc1]
      unfold out0_C_1 sout0_C_0; (try dsimp only)
      rw [PhiS0_castSucc V c t, PhiS0_pos V c _ _ hz]
      iintro ⟨⟨HS0, Hr, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0]
        · unfold owns; iexists _; isplitr
          swap; · iexact HS0
          ipureintro; exact View.read_writes_of_cover _ _ _ _ _ (scover0_C_0 c _ _ _ _ _ _ _ _ _ _ _)
        isplitl [Hr]; · iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [accAt0_B V c t h0 h1 hc0 hc1]
      unfold sout0_B_0; (try dsimp only)
      rw [PhiS0_castSucc V c t, PhiS0_pos V c _ _ hz]
      iintro ⟨⟨HS0, Hr, Hg⟩, Ho, ⟨%d0, H0⟩, ⟨%d1, H1⟩⟩
      iapply ((kernelRun0_B c (grid0.coords t) _ _ _ _ _ _ hc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _)
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨HS0, Hr, Hg⟩
  isplitl [HS0]
  · iexists _; iexact HS0
  isplitl [Hr]; · iexact Hr
  iexact Hg

end Cert.KernelIdeal.Reg0

end
-- ==== Proof.KI.Reg1Runs.lean ====
/-
  Region 1 (the aggregation kernel) of the program: the branch conditions of its body decided over the grid, where its
  output window is idle, and the body's run in each of the three control cases — the first column block of a row
  block (the accumulator is reset, then the block product adj·y added), a middle one (added only), the last one
  (added; then the self-loop term, the scaling by the row's inverse square-root degree, the linear layer, the bias
  and the row normalisation are computed from the accumulator and stored to the output block).
-/
import proofs.«114102_j90838558311239_1_alg».proof.Proof.Gen.KernelIdeal.Launch
import proofs.«114102_j90838558311239_1_alg».proof.Proof.Gen.KernelIdeal.Skeleton
import proofs.«114102_j90838558311239_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "this is the first column block": the grid's second coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "this is the last column block": the grid's second coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

abbrev VO1_6 : View sig .tc .vmem S1024x128 .f32 := (Memref.whole cc1_stg6_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a scratch buffer of the kernel's own, carried from point to point. -/
abbrev scM1_0 : Memref sig .tc .vmem S1024x128 .f32 := Memref.whole cc1_scratch0
abbrev VS1_0 : View sig .tc .vmem S1024x128 .f32 := scM1_0.view

/-! ## The body's run, case by case -/

set_option maxHeartbeats 1000000 in
/-- First column block: the accumulator (at anything) is zeroed and the block product added. Only the adjacency block,
    the y block and the accumulator are touched. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle column block: the block product is added to the accumulator as the point before left it. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 2000000 in
/-- The last column block: the block product is added, and the output block is stored from the accumulator, the
    degree block, the feature block, the weights and the bias. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Reg1

end
-- ==== Proof.KI.Reg1Frame.lean ====
/-
  Region 1 (the aggregation kernel): what its accumulator and its output block hold after each grid point, the
  region's invariant (the accumulator at the contents the point before left), the pipeline's proof data at the
  contents `V` the region is entered from, and the body obligation at every point.
-/
import proofs.«114102_j90838558311239_1_alg».proof.Proof.KI.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (y : S1024x128.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S1024x128.size (by sl_kernel_rfl) y

/-- The accumulator after a first column block. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1).1)

theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 xs0).1, y ∈ pc.1.set :=
  View.cover_of_tiledL (kernelRun1_B c i arg2 harg2 arg3 harg3 arg4 harg4 arg5 harg5 arg6 harg6 arg7 harg7 arg8 harg8 arg9 harg9 hc0 hc1 x0 x1 xs0).1 S1024x128.size (by sl_kernel_rfl) y

/-- The accumulator after a middle column block. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 xs0).1)

theorem cover1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- The output block after a last column block. -/
def out1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- The accumulator after a last column block. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## The accumulation, point by point -/

/-- The accumulator after the body at position `n`: reset and one block product at a first column block, the point
    before's contents plus this block product otherwise. -/
def accAt1 (c : Dev nD) : (n : ℕ) → n < cfg1.N → Vec F S1024x128 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩)
    else
      if h1 : (n + 1) % 4 = 3 then
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (accAt1 c n (Nat.lt_of_succ_lt hn))
      else
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (hc0 : cond1_0 (grid1.coords t)) (hc1 : ¬cond1_1 (grid1.coords t)) :
    accAt1 V c t.val t.isLt = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) (hc0 : ¬cond1_0 (grid1.coords t)) (hc1 : ¬cond1_1 (grid1.coords t)) :
    accAt1 V c t.val t.isLt = sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) (hc0 : ¬cond1_0 (grid1.coords t)) (hc1 : cond1_1 (grid1.coords t)) :
    accAt1 V c t.val t.isLt = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last column block what the case stores; a
    placeholder elsewhere (the window is idle there and not written back). -/
def outAt1 (c : Dev nD) (t : Fin cfg1.N) : Vec F S1024x128 .f32 :=
  if h1 : t.val % 4 = 3 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => (fun h => by omega) ((hcond1_0 t).mp h)) ((hcond1_1 t).mpr h1) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_6.read (Elt F) VO1_6.junk

theorem outAt1_C (c : Dev nD) (t : Fin cfg1.N) (h1 : t.val % 4 = 3) (hc0 : ¬cond1_0 (grid1.coords t)) (hc1 : cond1_1 (grid1.coords t)) :
    outAt1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold outAt1; exact (dif_pos h1).trans rfl

/-! ## The region's invariant -/

/-- The core's scoped buffers other than the accumulator that are no staging buffer of this region, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

def PhiS1 (c : Dev nD) : (n : ℕ) → n ≤ cfg1.N → sProp 𝕄
  | 0, _ => Pipeline.ΦA spec1 c
  | n + 1, hn => iprop(owns (c : Thread nD τ) scM1_0 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (accAt1 V c (n - 1) (by omega)) ∗ rest1 (F := F) c ∗ (∃ r, prngReg c r)) := by
  cases n with
  | zero => exact absurd rfl hz
  | succ n => rfl

/-- What the launch hands the region, with the accumulator (the last of the scoped buffers listed) singled out. -/
theorem PhiA1_eq (c : Dev nD) :
    (Pipeline.ΦA spec1 c : sProp 𝕄)
      = iprop((∃ d, owns (c : Thread nD τ) scM1_0 fullShare d) ∗ rest1 (F := F) c ∗ (∃ r, prngReg c r)) := by
  unfold Pipeline.ΦA; rw [scopedRest1_eq]; simp only [scM1_0, owns_whole]; unfold rest1
  have h₁ : ∀ (a b d e g S G : sProp 𝕄), (iprop((a ∗ b ∗ d ∗ e ∗ g ∗ S) ∗ G) : sProp 𝕄) ⊢ iprop(S ∗ (a ∗ b ∗ d ∗ e ∗ g) ∗ G) := by
    intro a b d e g S G
    iintro ⟨⟨Ha, Hb, Hd, He, Hg', HS⟩, HG⟩
    isplitl [HS]; · iexact HS
    isplitr [HG]
    · isplitl [Ha]; · iexact Ha
      isplitl [Hb]; · iexact Hb
      isplitl [Hd]; · iexact Hd
      isplitl [He]; · iexact He
      iexact Hg'
    iexact HG
  have h₂ : ∀ (a b d e g S G : sProp 𝕄), (iprop(S ∗ (a ∗ b ∗ d ∗ e ∗ g) ∗ G) : sProp 𝕄) ⊢ iprop((a ∗ b ∗ d ∗ e ∗ g ∗ S) ∗ G) := by
    intro a b d e g S G
    iintro ⟨HS, ⟨Ha, Hb, Hd, He, Hg'⟩, HG⟩
    isplitr [HG]
    · isplitl [Ha]; · iexact Ha
      isplitl [Hb]; · iexact Hb
      isplitl [Hd]; · iexact Hd
      isplitl [He]; · iexact He
      isplitl [Hg']; · iexact Hg'
      iexact HS
    iexact HG
  exact BI.equiv_iff.mp ⟨h₁ _ _ _ _ _ _ _, h₂ _ _ _ _ _ _ _⟩

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [accAt1_A V c t h0 hc0 hc1]
    unfold sout1_A_0; (try dsimp only)
    by_cases hz : t.val = 0
    · rw [PhiS1_castSucc V c t, PhiS1_zero V c _ _ hz, PhiA1_eq]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      rw [accAt1_C V c t h0 h1 hc0 hc1, outAt1_C V c t h1 hc0 hc1]
      unfold out1_C_6 sout1_C_0; (try dsimp only)
      rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6 t hc1) (noFlush1_6 t hc1)]
      rw [accAt1_B V c t h0 h1 hc0 hc1]
      unfold sout1_B_0; (try dsimp only)
      rw [PhiS1_castSucc V c t, PhiS1_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨HS0, Hr, Hg⟩
  isplitl [HS0]
  · iexists _; iexact HS0
  isplitl [Hr]; · iexact Hr
  iexact Hg

end Cert.KernelIdeal.Reg1

end
-- ==== Proof.KI.Run.lean ====
/-
  The program's run: @main is region 0 (the row-sum kernel), three host operations (the inverse square-root degrees
  broadcast along the features, the features scaled by them, the bias reshaped to a row) and region 1 (the
  aggregation kernel). The buffers' contents at each boundary are folded from the launch memory; each region's
  proof data is taken at the contents the region is entered from; the launch over the three segments ends with
  every unscoped buffer at the last boundary's contents.
-/
import proofs.«114102_j90838558311239_1_alg».proof.Proof.KI.Reg0Frame
import proofs.«114102_j90838558311239_1_alg».proof.Proof.KI.Reg1Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reg0 Cert.KernelIdeal.Reg1

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄) ∗ Pipeline.scopedRest spec0 c) := by
      unfold Pipeline.ΦA
      iintro ⟨Hr, Hp⟩
      isplitl [Hp]; · iexact Hp
      isplitr; · iempintro
      iexact Hr
    exact (hout0 (V0 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ (BI.emp : sProp 𝕄) ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of the TensorCore ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched, and the result's buffer holds what region 1 leaves -/

/-- No host operation writes `b`: its contents pass through the host stretch. -/
theorem W2_of_not_written (c : Dev nD) (b : Ref sig .tc) (hb : b ∉ ([main_v1, main_v2, main_v3] : List (Ref sig .tc))) :
    W2 m c (Proc.devRef .tc b) = W1 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne (fun h => hb (by rw [h]; simp))
    · exact StableHlo.devRef_ne_of_ne (fun h => hb (by rw [h]; simp))
    · exact StableHlo.devRef_ne_of_ne (fun h => hb (by rw [h]; simp))))

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 3).trans (((dat1 (V2 m) c).arrAt_in 3 rfl _).trans (A_eq1 (V2 m) c 3))
    _ = W1 m c (Proc.devRef .tc main_arg0) := W2_of_not_written m c main_arg0 (by decide)
    _ = W0 m c (Proc.devRef .tc main_arg0) := W1_of_ne m c main_arg0 (by decide)
    _ = m ((c : Thread nD τ).loc main_arg0) := rfl

theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_not_written m c main_arg1 (by decide)
    _ = m ((c : Thread nD τ).loc main_arg1) := W1_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 4).trans (((dat1 (V2 m) c).arrAt_in 4 rfl _).trans (A_eq1 (V2 m) c 4))
    _ = W1 m c (Proc.devRef .tc main_arg2) := W2_of_not_written m c main_arg2 (by decide)
    _ = W0 m c (Proc.devRef .tc main_arg2) := W1_of_ne m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_not_written m c main_arg3 (by decide)
    _ = W0 m c (Proc.devRef .tc main_arg3) := W1_of_ne m c main_arg3 (by decide)
    _ = m ((c : Thread nD τ).loc main_arg3) := rfl

/-- The result's buffer at the end: what region 1's pipeline leaves in its output array. -/
theorem W3_main_v4 (c : Dev nD) : W3 m c (Proc.devRef .tc main_v4) = (dat1 (V2 m) c).arrAt 6 cfg1.N := W3_arr m c 6

/-- The run with the frame's post and the result's buffer named. -/
theorem run_main : θ_run defs (onTc (τ := τ) (main (F := F))) ⟨m, fun _ => 0, ρ⟩ (fun r => ∀ c : Dev nD,
      r.2.mem ((c.tc : Thread nD τ).loc main_v4) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.KernelIdeal.Run

end
-- ==== Proof.KI.HostVals.lean ====
/-
  The contents region 1 is entered from, in terms of the launch memory and of what region 0 left: the host
  operations between the regions broadcast the inverse square-root degrees along the features, multiply the
  features by them, and reshape the bias to a row; they write none of the arguments nor region 0's result.
-/
import proofs.«114102_j90838558311239_1_alg».proof.Proof.KI.Run
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reg0 Cert.KernelIdeal.Reg1 Cert.KernelIdeal.Run
open Idealize.ShloMosaic.ValueIdx

variable (m : (ℓ : Loc nD τ sig) → Buf (Elt F) ℓ)

theorem V2_main_v0 (c : Dev nD) : V2 m c main_v0 = (dat0 (V0 m) c).arrAt 1 cfg0.N :=
  (W2_of_not_written m c main_v0 (by decide)).trans (W1_arr m c 1)

theorem V2_main_arg0 (c : Dev nD) : V2 m c main_arg0 = m ((c : Thread nD τ).loc main_arg0) :=
  (W2_of_not_written m c main_arg0 (by decide)).trans (W1_of_ne m c main_arg0 (by decide))

theorem V2_main_arg1 (c : Dev nD) : V2 m c main_arg1 = m ((c : Thread nD τ).loc main_arg1) :=
  (W2_of_not_written m c main_arg1 (by decide)).trans (W1_main_arg1 m c)

theorem V2_main_arg2 (c : Dev nD) : V2 m c main_arg2 = m ((c : Thread nD τ).loc main_arg2) :=
  (W2_of_not_written m c main_arg2 (by decide)).trans (W1_of_ne m c main_arg2 (by decide))

/-- The scaled features: the degrees' column broadcast along the features, times the features. -/
theorem V2_main_v2 (c : Dev nD) :
    (V2 m c main_v2 : S8192x128.Idx → Elt F .f32)
      = mulf (broadcastInDim S8192x128 ![0, 1] bcast_S8192x1_S8192x128_0_1 ((dat0 (V0 m) c).arrAt 1 cfg0.N : S8192x1.Idx → Elt F .f32))
          (m ((c : Thread nD τ).loc main_arg0) : S8192x128.Idx → Elt F .f32) := by
  have e : (V2 m c main_v2 : S8192x128.Idx → Elt F .f32)
      = mulf (broadcastInDim S8192x128 ![0, 1] bcast_S8192x1_S8192x128_0_1 (W1 m c (Proc.devRef .tc main_v0) : S8192x1.Idx → Elt F .f32))
          (W1 m c (Proc.devRef .tc main_arg0) : S8192x128.Idx → Elt F .f32) := by
    show StableHlo.after hostOps1 (W1 m c) (Proc.devRef .tc main_v2) = _
    after_results
    try rfl
  rw [e, W1_arr m c 1, W1_of_ne m c main_arg0 (by decide)]

/-- The bias as a row. -/
theorem V2_main_v3 (c : Dev nD) :
    (V2 m c main_v3 : S1x128.Idx → Elt F .f32)
      = shapeCast S1x128 (m ((c : Thread nD τ).loc main_arg3) : S128.Idx → Elt F .f32) shapeCasts_S128_S1x128 := by
  have e : (V2 m c main_v3 : S1x128.Idx → Elt F .f32)
      = shapeCast S1x128 (W1 m c (Proc.devRef .tc main_arg3) : S128.Idx → Elt F .f32) shapeCasts_S128_S1x128 := by
    show StableHlo.after hostOps1 (W1 m c) (Proc.devRef .tc main_v3) = _
    after_results
    try rfl
  rw [e, W1_of_ne m c main_arg3 (by decide)]

end Cert.KernelIdeal.HostVals

end
-- ==== Proof.Spec.lean ====
/-
  The two programs' results as plain functions of the four inputs, index by index, on the extended reals.
  `outK` is the kernel's arrangement: the degree is the row sum of the adjacency matrix plus one, the features are
  scaled by the inverse square-root degree BEFORE the aggregation and the self-loop term is added afterwards.
  `outR` is the reference's: the identity is added to the adjacency matrix first, and the matrix is scaled on both
  sides before the aggregation. Both end in the same linear layer, bias and row normalisation (`tail`).
-/
import Idealize.ShloMosaic.PureOps.Ideal
import Idealize.ShloMosaic.PureOps.Ideal.Laws
import Idealize.ShloMosaic.Lib.ValueIdx

noncomputable section

namespace Cert.Spec

open Idealize.ShloMosaic

/-- A rank-2 array read as a matrix. -/
abbrev mat2 {r c : Nat} (x : (⟨2, ![r, c]⟩ : Shape).Idx → EReal) : Fin r → Fin c → EReal := fun i j => x (ValueIdx.ix2 i j)
/-- A rank-1 array read as a vector. -/
abbrev vec1 {n : Nat} (x : (⟨1, ![n]⟩ : Shape).Idx → EReal) : Fin n → EReal := fun i => x (ValueIdx.ix1 i)

/-- The normalisation's floor, the literal both programs carry. -/
def eps : EReal := Ideal.ofBits .f32 0x2B8CBCCC#32

/-- The linear layer `H · Wtᵀ + B`, then each row divided by the larger of its Euclidean norm and `eps`. -/
def lin (H : Fin 8192 → Fin 128 → EReal) (Wt : Fin 128 → Fin 128 → EReal) (B : Fin 128 → EReal) (i : Fin 8192) (g : Fin 128) : EReal :=
  (∑ f : Fin 128, H i f * Wt g f) + B g

def tail (H : Fin 8192 → Fin 128 → EReal) (Wt : Fin 128 → Fin 128 → EReal) (B : Fin 128 → EReal) (i : Fin 8192) (g : Fin 128) : EReal :=
  Ideal.div (lin H Wt B i g) (max (Ideal.sqrt (∑ g' : Fin 128, lin H Wt B i g' * lin H Wt B i g')) eps)

/-! ## The kernel's arrangement -/

/-- The inverse square root of a row's degree, the degree being the row sum plus one. -/
def dinvK (A : Fin 8192 → Fin 8192 → EReal) (i : Fin 8192) : EReal := Ideal.rsqrt ((∑ j : Fin 8192, A i j) + 1)

/-- The aggregated features: `d_i · (Σ_j A_ij · (d_j · X_jf) + d_i · X_if)`. -/
def aggK (X : Fin 8192 → Fin 128 → EReal) (A : Fin 8192 → Fin 8192 → EReal) (i : Fin 8192) (f : Fin 128) : EReal :=
  dinvK A i * ((∑ j : Fin 8192, A i j * (dinvK A j * X j f)) + dinvK A i * X i f)

def outK (X : Fin 8192 → Fin 128 → EReal) (A : Fin 8192 → Fin 8192 → EReal) (Wt : Fin 128 → Fin 128 → EReal) (B : Fin 128 → EReal) :
    Fin 8192 → Fin 128 → EReal := tail (aggK X A) Wt B

/-! ## The reference's arrangement -/

/-- The adjacency matrix with self loops. -/
def adjI (A : Fin 8192 → Fin 8192 → EReal) (i j : Fin 8192) : EReal := A i j + (if i = j then 1 else 0)

def dinvR (A : Fin 8192 → Fin 8192 → EReal) (i : Fin 8192) : EReal := Ideal.rsqrt (∑ j : Fin 8192, adjI A i j)

/-- The aggregated features: `Σ_j ((A+I)_ij · d_i · d_j) · X_jf`. -/
def aggR (X : Fin 8192 → Fin 128 → EReal) (A : Fin 8192 → Fin 8192 → EReal) (i : Fin 8192) (f : Fin 128) : EReal :=
  ∑ j : Fin 8192, ((adjI A i j * dinvR A i) * dinvR A j) * X j f

def outR (X : Fin 8192 → Fin 128 → EReal) (A : Fin 8192 → Fin 8192 → EReal) (Wt : Fin 128 → Fin 128 → EReal) (B : Fin 128 → EReal) :
    Fin 8192 → Fin 128 → EReal := tail (aggR X A) Wt B

end Cert.Spec

end
-- ==== Proof.SpecK.lean ====
/-
  The aggregation kernel's result from the arrays it is handed: the inverse square-root degrees `d`, the scaled
  features `Y`, the features `X`, the adjacency matrix `A`, the weights and the bias. With `d` the row-sum kernel's
  result and `Y = d · X` this is the kernel's arrangement `Spec.outK`.
-/
import proofs.«114102_j90838558311239_1_alg».proof.Proof.Spec

noncomputable section

namespace Cert.Spec

open Idealize.ShloMosaic

/-- `d_i · (Σ_j A_ij · Y_jf + d_i · X_if)`. -/
def aggG (d : Fin 8192 → EReal) (Y X : Fin 8192 → Fin 128 → EReal) (A : Fin 8192 → Fin 8192 → EReal) (i : Fin 8192) (f : Fin 128) : EReal :=
  d i * ((∑ j : Fin 8192, A i j * Y j f) + d i * X i f)

theorem aggK_eq_aggG (X : Fin 8192 → Fin 128 → EReal) (A : Fin 8192 → Fin 8192 → EReal) :
    aggK X A = aggG (dinvK A) (fun j f => dinvK A j * X j f) X A := rfl

/-- One row of the linear layer: `h · Wtᵀ + B`. -/
def rowLin (h : Fin 128 → EReal) (Wt : Fin 128 → Fin 128 → EReal) (B : Fin 128 → EReal) (g : Fin 128) : EReal :=
  (∑ f : Fin 128, h f * Wt g f) + B g

/-- One row of the result: the row of the linear layer divided by the larger of its Euclidean norm and `eps`. -/
def rowTail (h : Fin 128 → EReal) (Wt : Fin 128 → Fin 128 → EReal) (B : Fin 128 → EReal) (g : Fin 128) : EReal :=
  Ideal.div (rowLin h Wt B g) (max (Ideal.sqrt (∑ g' : Fin 128, rowLin h Wt B g' * rowLin h Wt B g')) eps)

theorem tail_eq_rowTail (H : Fin 8192 → Fin 128 → EReal) (Wt : Fin 128 → Fin 128 → EReal) (B : Fin 128 → EReal) (i : Fin 8192) (g : Fin 128) :
    tail H Wt B i g = rowTail (H i) Wt B g := rfl

end Cert.Spec

end
-- ==== Proof.KI.PayIdx.lean ====
/-
  The kernels' payloads read at an index, on the extended reals: the row-sum kernel's accumulation step is a sum
  along a block's row added to the accumulator, its epilogue the reciprocal square root of the accumulated degree
  plus one; the aggregation kernel's accumulation step adds the block product's entry, its epilogue is one row of
  the scaled self-loop sum, the linear layer, the bias and the normalisation.
-/
import proofs.«114102_j90838558311239_1_alg».proof.Proof.Gen.KernelIdeal.Skeleton
import proofs.«114102_j90838558311239_1_alg».proof.Proof.SpecK
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.PayIdx

open Cert.KernelIdeal Cert.KernelIdeal.Gen
open Idealize.ShloMosaic Idealize.ShloMosaic.ValueIdx

/-! ## Layout operations on a column -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along a row -/

/-- A lane sum of a `[a, b]` array from the zero word reads, at `p`, the sum of row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (p : Fin a) :
    multiReduction (F := Ideal) .add [1] ⟨1, ![a]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext ax
  match ax with
  | ⟨0, _⟩ => rfl
  | ⟨1, _⟩ => rfl

/-! ## The row-sum kernel -/

/-- The row-sum kernel's reset value is zero. -/
theorem pay0_1_apply (p : Fin 1024) : k0_pay1 (F := Ideal) (ix2 p (0 : Fin 1)) = 0 := by
  unfold k0_pay1
  rw [shapeCast_self]
  exact Ideal.ofBits_zero_f32

/-- One accumulation step of the row-sum kernel: the block's row sum is added. -/
theorem pay0_2_apply (acc : Vec Ideal S1024x1 .f32) (x : Vec Ideal S1024x2048 .f32) (p : Fin 1024) :
    k0_pay2 (F := Ideal) acc x (ix2 p (0 : Fin 1)) = acc (ix2 p (0 : Fin 1)) + ∑ j : Fin 2048, x (ix2 p j) := by
  unfold k0_pay2
  rw [shapeCast_self]
  refine congrArg (acc (ix2 p (0 : Fin 1)) + ·) ?_
  refine (shapeCast_a_a1_apply _ _ p (0 : Fin 1)).trans ?_
  exact rowSum_apply x _ _ _ p

/-- The row-sum kernel's epilogue: the reciprocal square root of the accumulated row sum plus one. -/
theorem pay0_3_apply (v : Vec Ideal S1024x1 .f32) (p : Fin 1024) :
    k0_pay3 (F := Ideal) v (ix2 p (0 : Fin 1)) = Ideal.rsqrt (v (ix2 p (0 : Fin 1)) + 1) := by
  unfold k0_pay3
  show Ideal.rsqrt (v (ix2 p (0 : Fin 1)) + Ideal.ofBits .f32 0x3F800000#32) = _
  rw [Ideal.ofBits_one_f32]

/-! ## The aggregation kernel: reset and accumulation -/

/-- The aggregation kernel's reset value is zero. -/
theorem pay1_1_apply (p : Fin 1024) (f : Fin 128) : k1_pay1 (F := Ideal) (ix2 p f) = 0 := by
  unfold k1_pay1
  rw [shapeCast_self]
  exact Ideal.ofBits_zero_f32

/-! ## The block product: `out(p, f) = Σ_j A(p, j) · Y(j, f)` -/

theorem lhs_blk_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_blk_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_blk_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_blk_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at an entry. -/
theorem blockProduct_apply (A : FVec Ideal S1024x2048 .bf16) (Y : FVec Ideal S2048x128 .bf16) (p : Fin 1024) (f : Fin 128) :
    matmul dot_S1024x2048_S2048x128_S1024x128_1_0_0_1_n_n none A Y (constant (F := Ideal) S1024x128 .f32 0x00000000#32) (ix2 p f)
      = ∑ j : Fin 2048, A (ix2 p j) * Y (ix2 j f) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p f) ((contrEquiv1 dot_S1024x2048_S2048x128_S1024x128_1_0_0_1_n_n 2048 rfl rfl).symm k) = ix2 p k := funext fun a => Fin.ext (by
    match a with
    | ⟨0, _⟩ => exact lhs_blk_0 _ _
    | ⟨1, _⟩ => exact (lhs_blk_1 _ _).trans hk)
  have er : dot_S1024x2048_S2048x128_S1024x128_1_0_0_1_n_n.rhsIdx (ix2 p f) ((contrEquiv1 dot_S1024x2048_S2048x128_S1024x128_1_0_0_1_n_n 2048 rfl rfl).symm k) = ix2 k f := funext fun a => Fin.ext (by
    match a with
    | ⟨0, _⟩ => exact (rhs_blk_0 _ _).trans hk
    | ⟨1, _⟩ => exact rhs_blk_1 _ _)
  rw [el, er]

/-- One accumulation step of the aggregation kernel: the block product's entry is added. -/
theorem pay1_2_apply (xA : Vec Ideal S1024x2048 .f32) (xY : Vec Ideal S2048x128 .f32) (acc : Vec Ideal S1024x128 .f32) (p : Fin 1024) (f : Fin 128) :
    k1_pay2 (F := Ideal) xA xY acc (ix2 p f) = acc (ix2 p f) + ∑ j : Fin 2048, xA (ix2 p j) * xY (ix2 j f) := by
  unfold k1_pay2
  rw [shapeCast_self]
  refine congrArg (acc (ix2 p f) + ·) ?_
  refine (blockProduct_apply _ _ p f).trans ?_
  rw [shapeCast_self]
  rfl

/-! ## The aggregation kernel's epilogue -/

/-- The scaled self-loop row: `d_p · (acc_pf + d_p · x_pf)`. -/
theorem scaledRow_apply (d : FVec Ideal S1024x1 .f32) (x acc : FVec Ideal S1024x128 .f32) (p : Fin 1024) (f : Fin 128) :
    mulf (broadcastTo S1024x128 d broadcasts_S1024x1_S1024x128)
        (addf acc (mulf (broadcastTo S1024x128 d broadcasts_S1024x1_S1024x128) x)) (ix2 p f)
      = d (ix2 p (0 : Fin 1)) * (acc (ix2 p f) + d (ix2 p (0 : Fin 1)) * x (ix2 p f)) := by
  show broadcastTo S1024x128 d broadcasts_S1024x1_S1024x128 (ix2 p f)
      * (acc (ix2 p f) + broadcastTo S1024x128 d broadcasts_S1024x1_S1024x128 (ix2 p f) * x (ix2 p f)) = _
  rw [broadcastTo_a1_ab_apply]

/-! ### The linear layer: `out(p, g) = Σ_f H(p, f) · W(g, f)` (both operands contracted along their second axis) -/

theorem lhs_lin_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem lhs_lin_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem rhs_lin_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem rhs_lin_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The linear layer's product into the zero accumulator, at an entry. -/
theorem linProduct_apply (H : FVec Ideal S1024x128 .bf16) (W : FVec Ideal S128x128 .bf16) (p : Fin 1024) (g : Fin 128) :
    matmul dot_S1024x128_S128x128_S1024x128_1_1_0_0_n_n none H W (constant (F := Ideal) S1024x128 .f32 0x00000000#32) (ix2 p g)
      = ∑ f : Fin 128, H (ix2 p f) * W (ix2 g f) := by
  simp only [matmul]
  rw [Ideal.matmul_constant_zero_apply, ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 p g) ((contrEquiv1 dot_S1024x128_S128x128_S1024x128_1_1_0_0_n_n 128 rfl rfl).symm k) = ix2 p k := funext fun a => Fin.ext (by
    match a with
    | ⟨0, _⟩ => exact lhs_lin_0 _ _
    | ⟨1, _⟩ => exact (lhs_lin_1 _ _).trans hk)
  have er : dot_S1024x128_S128x128_S1024x128_1_1_0_0_n_n.rhsIdx (ix2 p g) ((contrEquiv1 dot_S1024x128_S128x128_S1024x128_1_1_0_0_n_n 128 rfl rfl).symm k) = ix2 g k := funext fun a => Fin.ext (by
    match a with
    | ⟨0, _⟩ => exact rhs_lin_0 _ _
    | ⟨1, _⟩ => exact (rhs_lin_1 _ _).trans hk)
  rw [el, er]

/-- The linear layer with its bias, at an entry: one row of `h · Wtᵀ + B`. -/
theorem linBias_apply (hv : FVec Ideal S1024x128 .f32) (w : FVec Ideal S128x128 .f32) (b : FVec Ideal S1x128 .f32)
    (p : Fin 1024) (g : Fin 128) :
    addf (matmul dot_S1024x128_S128x128_S1024x128_1_1_0_0_n_n none (truncf .bf16 hv bitsLt_bf16_f32) (truncf .bf16 w bitsLt_bf16_f32)
          (constant (F := Ideal) S1024x128 .f32 0x00000000#32))
        (broadcastTo S1024x128 (shapeCast S1x128 b shapeCasts_S1x128_S1x128) broadcasts_S1x128_S1024x128) (ix2 p g)
      = Cert.Spec.rowLin (fun f => hv (ix2 p f)) (Cert.Spec.mat2 w) (fun g' => b (ix2 (0 : Fin 1) g')) g := by
  rw [shapeCast_self]
  show matmul dot_S1024x128_S128x128_S1024x128_1_1_0_0_n_n none (truncf .bf16 hv bitsLt_bf16_f32) (truncf .bf16 w bitsLt_bf16_f32)
          (constant (F := Ideal) S1024x128 .f32 0x00000000#32) (ix2 p g)
        + broadcastTo S1024x128 b broadcasts_S1x128_S1024x128 (ix2 p g) = _
  rw [linProduct_apply, broadcastTo_1b_ab_apply]
  rfl

/-- The squared row sum: the lane sum of the squares, as a column, at a row. -/
theorem sqRowSum_apply (L : FVec Ideal S1024x128 .f32) (p : Fin 1024) :
    shapeCast S1024x1 (multiReduction (F := Ideal) .add [1] S1024 (mulf L L) 0x00000000#32 reduces_S1024x128_S1024 (.inl rfl) rfl)
        shapeCasts_S1024_S1024x1 (ix2 p (0 : Fin 1))
      = ∑ g' : Fin 128, L (ix2 p g') * L (ix2 p g') := by
  refine (shapeCast_a_a1_apply _ _ p (0 : Fin 1)).trans ?_
  exact rowSum_apply (mulf L L) _ _ _ p

/-- The normalisation, at an entry: the entry divided by the larger of its row's Euclidean norm and the floor. -/
theorem normalise_apply (L : FVec Ideal S1024x128 .f32) (p : Fin 1024) (g : Fin 128) :
    divf L (broadcastTo S1024x128
        (maximumf (sqrt (shapeCast S1024x1 (multiReduction (F := Ideal) .add [1] S1024 (mulf L L) 0x00000000#32 reduces_S1024x128_S1024 (.inl rfl) rfl)
            shapeCasts_S1024_S1024x1))
          (broadcast S1024x1 (Scalar.ofBits (F := Ideal) .f32 0x2B8CBCCC#32)))
        broadcasts_S1024x1_S1024x128) (ix2 p g)
      = Ideal.div (L (ix2 p g)) (max (Ideal.sqrt (∑ g' : Fin 128, L (ix2 p g') * L (ix2 p g'))) Cert.Spec.eps) := by
  rw [divf_apply, broadcastTo_a1_ab_apply, maximumf_apply]
  refine congrArg (fun t => Ideal.div (L (ix2 p g)) (max t Cert.Spec.eps)) ?_
  exact congrArg Ideal.sqrt (sqRowSum_apply L p)

/-- The aggregation kernel's epilogue, one entry: the row `d · (acc + d · x)` through the linear layer, the bias and
    the normalisation. -/
theorem pay1_3_apply (d : Vec Ideal S1024x1 .f32) (x : Vec Ideal S1024x128 .f32) (acc : Vec Ideal S1024x128 .f32) (w : Vec Ideal S128x128 .f32) (b : Vec Ideal S1x128 .f32)
    (p : Fin 1024) (g : Fin 128) :
    k1_pay3 (F := Ideal) d x acc w b (ix2 p g)
      = Cert.Spec.rowTail (fun f => d (ix2 p (0 : Fin 1)) * (acc (ix2 p f) + d (ix2 p (0 : Fin 1)) * x (ix2 p f))) (Cert.Spec.mat2 w) (fun g' => b (ix2 (0 : Fin 1) g')) g := by
  unfold k1_pay3
  rw [shapeCast_self]
  refine (normalise_apply _ p g).trans ?_
  have hL : ∀ g'' : Fin 128,
      addf (matmul dot_S1024x128_S128x128_S1024x128_1_1_0_0_n_n none
            (truncf .bf16 (mulf (broadcastTo S1024x128 d broadcasts_S1024x1_S1024x128)
              (addf acc (mulf (broadcastTo S1024x128 d broadcasts_S1024x1_S1024x128) x))) bitsLt_bf16_f32)
            (truncf .bf16 w bitsLt_bf16_f32) (constant (F := Ideal) S1024x128 .f32 0x00000000#32))
          (broadcastTo S1024x128 (shapeCast S1x128 b shapeCasts_S1x128_S1x128) broadcasts_S1x128_S1024x128) (ix2 p g'')
        = Cert.Spec.rowLin (fun f => d (ix2 p (0 : Fin 1)) * (acc (ix2 p f) + d (ix2 p (0 : Fin 1)) * x (ix2 p f)))
            (Cert.Spec.mat2 w) (fun g' => b (ix2 (0 : Fin 1) g')) g'' := by
    intro g''
    refine (linBias_apply _ w b p g'').trans ?_
    refine congrArg (fun h => Cert.Spec.rowLin h (Cert.Spec.mat2 w) (fun g' => b (ix2 (0 : Fin 1) g')) g'') ?_
    funext f
    exact scaledRow_apply d x acc p f
  unfold Cert.Spec.rowTail
  simp only [hL]

end Cert.KernelIdeal.PayIdx

end
-- ==== Proof.KI.Val0.lean ====
/-
  What the row-sum region leaves in its result array, on the extended reals: row i of the result column is the
  reciprocal square root of (the sum of row i of the adjacency matrix) plus one.
  The region walks the matrix in blocks of 1024 rows by 2048 columns, point t = 4·r + k reading block (r, k). An
  accumulator of one column of 1024 entries is carried across the four column blocks of a row block: reset at k = 0,
  the block's row sums added at every k, and at k = 3 its reciprocal square root (after adding one) stored to block r
  of the result column. So after the k-th column block the accumulator holds the matrix rows summed over the columns
  below 2048·(k+1) (an induction over the points; the column ranges are split by plain arithmetic on natural-number
  columns), the last block stores the full row sums' epilogue, and the eight stored blocks tile the result column.
-/
import proofs.«114102_j90838558311239_1_alg».proof.Proof.KI.Reg0Frame
import proofs.«114102_j90838558311239_1_alg».proof.Proof.KI.PayIdx
import Idealize.ShloMosaic.Lib.Pipeline.Value
import Idealize.ShloMosaic.Lib.ValueIdx
import Idealize.ShloMosaic.Lib.Tactic

set_option maxRecDepth 16384

noncomputable section

namespace Cert.KernelIdeal.Val0

open Cert.KernelIdeal Cert.KernelIdeal.Gen Cert.KernelIdeal.Reg0
open Idealize.ShloMosaic Idealize.ShloMosaic.TcCoe Idealize.ShloMosaic.Tactic Idealize.SL.Sem
open Idealize.ShloMosaic.Pipeline (Dat)
open Idealize.ShloMosaic.ValueIdx (ix1 ix2)

variable {F : FTy → Type} [FloatOps F]

theorem hz : (![0, 0] : Fin 2 → Nat) = fun _ => 0 := funext fun a => by fin_cases a <;> rfl

/-! ## What each control case leaves, as the payloads of the blocks it read -/

/-- A middle column block leaves the accumulator's old contents with the block's row sums added. -/
theorem sout_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz]
  simp only [View.readAt_eq_ld, harg4.read_unread, harg2.read_unread, View.ld_unit_zero (S := S1024x1) hz,
    View.ld_unit_zero (S := S1024x2048) hz]

/-- A first column block resets the accumulator, then adds the block's row sums to the reset value. -/
theorem sout_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    sout0_A_0 c i arg2 harg2 arg3 harg3 arg4 harg4 hc0 hc1 x0 = k0_pay2 k0_pay1 x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- A last column block adds the block's row sums like a middle one … -/
theorem sout_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg4.read_unread, harg2.read_unread, View.ld_unit_zero (S := S1024x1) hz,
    View.ld_unit_zero (S := S1024x2048) hz]

/-- … and stores the epilogue of the accumulator it has just updated to the output block. -/
theorem out_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    out0_C_1 c i arg2 harg2 arg3 harg3 arg4 harg4 hc0 hc1 x0 xs0 = k0_pay3 (k0_pay2 xs0 x0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz, View.readCov_unit_zero (S := S1024x1) _ hz]
  simp only [View.readAt_eq_ld, harg4.read_unread, harg2.read_unread, View.ld_unit_zero (S := S1024x1) hz,
    View.ld_unit_zero (S := S1024x2048) hz]

/-! ## The adjacency blocks read off the array -/

variable (V : (c : Dev nD) → (b : Ref sig .tc) → Buf (Elt Ideal) ((c : Thread nD τ).loc b))

/-- The adjacency matrix as the region finds it. -/
abbrev adj (c : Dev nD) : Fin 8192 → Fin 8192 → EReal := Cert.Spec.mat2 (r := 8192) (c := 8192) (V c main_arg1)

/-- The adjacency block at a point. -/
abbrev ablk (c : Dev nD) (t : Fin cfg0.N) : Vec Ideal S1024x2048 .f32 := iblk0 V c 0 t

/-- Point t = 4·r + k reads block (r, k) of the adjacency matrix … -/
theorem idx_adj : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)

/-- … and writes block (r, 0) of the result column. -/
theorem idx_out : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- The matrix row that row p of the blocks at point n belongs to. -/
def rowOf (n : ℕ) (hn : n < cfg0.N) (p : Fin 1024) : Fin 8192 :=
  ⟨n / 4 * 1024 + p.val, by have := p.isLt; have h32 : cfg0.N = 32 := N_0; omega⟩

/-- A matrix row read at a natural-number column (zero past the end), so that column ranges can be split by plain
    arithmetic. -/
def rowN (A : Fin 8192 → Fin 8192 → EReal) (i : Fin 8192) (b : ℕ) : EReal := if h : b < 8192 then A i ⟨b, h⟩ else 0

theorem ablk_apply (c : Dev nD) (t : Fin cfg0.N) (p : Fin 1024) (j : Fin 2048) :
    ablk V c t (ix2 p j) = rowN (adj V c) (rowOf t.val t.isLt p) (2048 * (t.val % 4) + j.val) := by
  have h32 : cfg0.N = 32 := N_0
  have ht := t.isLt
  have hp := p.isLt
  have hj := j.isLt
  have hb : 2048 * (t.val % 4) + j.val < 8192 := by omega
  unfold rowN
  rw [dif_pos hb]
  show iblk0 V c 0 t (ix2 p j) = V c main_arg1 (ix2 (rowOf t.val t.isLt p) ⟨2048 * (t.val % 4) + j.val, hb⟩)
  unfold iblk0
  rw [View.read_apply]
  show V c main_arg1 _ = V c main_arg1 _
  congr 1
  funext a
  apply Fin.ext
  match a with
  | ⟨0, _⟩ => show win0_0.index t (0 : Fin 2) * 1024 + 1 * p.val = t.val / 4 * 1024 + p.val; rw [(idx_adj t).1]; omega
  | ⟨1, _⟩ => show win0_0.index t (1 : Fin 2) * 2048 + 1 * j.val = 2048 * (t.val % 4) + j.val; rw [(idx_adj t).2]; omega

/-- A block's row sum is the matrix row summed over the block's column range. -/
theorem ablk_rowsum (c : Dev nD) (t : Fin cfg0.N) (p : Fin 1024) :
    ∑ j : Fin 2048, ablk V c t (ix2 p j)
      = ∑ j ∈ Finset.range 2048, rowN (adj V c) (rowOf t.val t.isLt p) (2048 * (t.val % 4) + j) := by
  rw [Finset.sum_range]
  exact Finset.sum_congr rfl fun j _ => ablk_apply V c t p j

/-! ## The accumulator, point by point, and its closed form -/

/-- At a first column block the accumulator ends at the block's row sums (added to the zero it was reset to). -/
theorem acc_first (c : Dev nD) (t : Fin cfg0.N) (h0 : t.val % 4 = 0) (p : Fin 1024) :
    (accAt0 V c t.val t.isLt : Vec Ideal S1024x1 .f32) (ix2 p (0 : Fin 1)) = ∑ j : Fin 2048, ablk V c t (ix2 p j) := by
  have hc0 : cond0_0 (grid0.coords t) := (hcond0_0 t).mpr h0
  have hc1 : ¬cond0_1 (grid0.coords t) := fun h => by have := (hcond0_1 t).mp h; omega
  rw [accAt0_A V c t h0 hc0 hc1]
  refine (congrFun (sout_A (F := Ideal) c (grid0.coords t) (ms0_0 t) (hs0_0 t) (ms0_1 t) (hs0_1 t) scM0_0 (Memref.isWhole_whole _) hc0 hc1 (ablk V c t)) (ix2 p (0 : Fin 1))).trans ?_
  refine (PayIdx.pay0_2_apply (k0_pay1 (F := Ideal)) (ablk V c t) p).trans ?_
  rw [PayIdx.pay0_1_apply, zero_add]

/-- At every other column block the block's row sums are added to what the point before left. -/
theorem acc_next (c : Dev nD) (t : Fin cfg0.N) (h0 : ¬t.val % 4 = 0) (p : Fin 1024) :
    (accAt0 V c t.val t.isLt : Vec Ideal S1024x1 .f32) (ix2 p (0 : Fin 1))
      = (accAt0 V c (t.val - 1) (Nat.lt_of_le_of_lt (Nat.sub_le _ _) t.isLt) : Vec Ideal S1024x1 .f32) (ix2 p (0 : Fin 1))
        + ∑ j : Fin 2048, ablk V c t (ix2 p j) := by
  have hc0 : ¬cond0_0 (grid0.coords t) := fun h => h0 ((hcond0_0 t).mp h)
  by_cases h1 : t.val % 4 = 3
  · have hc1 : cond0_1 (grid0.coords t) := (hcond0_1 t).mpr h1
    rw [accAt0_C V c t h0 h1 hc0 hc1]
    refine (congrFun (sout_C (F := Ideal) c (grid0.coords t) (ms0_0 t) (hs0_0 t) (ms0_1 t) (hs0_1 t) scM0_0 (Memref.isWhole_whole _) hc0 hc1 (ablk V c t)
      (accAt0 V c (t.val - 1) (Nat.lt_of_le_of_lt (Nat.sub_le _ _) t.isLt))) (ix2 p (0 : Fin 1))).trans ?_
    exact PayIdx.pay0_2_apply (accAt0 V c (t.val - 1) (Nat.lt_of_le_of_lt (Nat.sub_le _ _) t.isLt)) (ablk V c t) p
  · have hc1 : ¬cond0_1 (grid0.coords t) := fun h => h1 ((hcond0_1 t).mp h)
    rw [accAt0_B V c t h0 h1 hc0 hc1]
    refine (congrFun (sout_B (F := Ideal) c (grid0.coords t) (ms0_0 t) (hs0_0 t) (ms0_1 t) (hs0_1 t) scM0_0 (Memref.isWhole_whole _) hc0 hc1 (ablk V c t)
      (accAt0 V c (t.val - 1) (Nat.lt_of_le_of_lt (Nat.sub_le _ _) t.isLt))) (ix2 p (0 : Fin 1))).trans ?_
    exact PayIdx.pay0_2_apply (accAt0 V c (t.val - 1) (Nat.lt_of_le_of_lt (Nat.sub_le _ _) t.isLt)) (ablk V c t) p

/-- After the k-th column block of a row block the accumulator holds the matrix rows summed over the first
    2048·(k+1) columns: by induction over the points. -/
theorem acc_closed (c : Dev nD) (n : ℕ) : ∀ (hn : n < cfg0.N) (p : Fin 1024),
    (accAt0 V c n hn : Vec Ideal S1024x1 .f32) (ix2 p (0 : Fin 1))
      = ∑ b ∈ Finset.range (2048 * (n % 4 + 1)), rowN (adj V c) (rowOf n hn p) b := by
  induction n with
  | zero =>
    intro hn p
    refine (acc_first V c ⟨0, hn⟩ rfl p).trans ?_
    rw [ablk_rowsum]
    show ∑ j ∈ Finset.range 2048, rowN (adj V c) (rowOf 0 hn p) (2048 * (0 % 4) + j)
      = ∑ b ∈ Finset.range (2048 * (0 % 4 + 1)), rowN (adj V c) (rowOf 0 hn p) b
    simp only [Nat.zero_mod, Nat.mul_zero, Nat.zero_add, Nat.mul_one]
  | succ n ih =>
    intro hn p
    by_cases h0 : (n + 1) % 4 = 0
    · refine (acc_first V c ⟨n + 1, hn⟩ h0 p).trans ?_
      rw [ablk_rowsum]
      show ∑ j ∈ Finset.range 2048, rowN (adj V c) (rowOf (n + 1) hn p) (2048 * ((n + 1) % 4) + j)
        = ∑ b ∈ Finset.range (2048 * ((n + 1) % 4 + 1)), rowN (adj V c) (rowOf (n + 1) hn p) b
      rw [h0]
      simp only [Nat.mul_zero, Nat.zero_add, Nat.mul_one]
    · refine (acc_next V c ⟨n + 1, hn⟩ h0 p).trans ?_
      rw [ablk_rowsum]
      show (accAt0 V c n (Nat.lt_of_succ_lt hn) : Vec Ideal S1024x1 .f32) (ix2 p (0 : Fin 1))
          + ∑ j ∈ Finset.range 2048, rowN (adj V c) (rowOf (n + 1) hn p) (2048 * ((n + 1) % 4) + j)
        = ∑ b ∈ Finset.range (2048 * ((n + 1) % 4 + 1)), rowN (adj V c) (rowOf (n + 1) hn p) b
      rw [ih]
      have hr : rowOf n (Nat.lt_of_succ_lt hn) p = rowOf (n + 1) hn p :=
        Fin.ext (by show n / 4 * 1024 + p.val = (n + 1) / 4 * 1024 + p.val; omega)
      have hk : (n + 1) % 4 = n % 4 + 1 := by omega
      rw [hr, hk, show 2048 * (n % 4 + 1 + 1) = 2048 * (n % 4 + 1) + 2048 from by omega, Finset.sum_range_add]

/-- The output block a last column block stores: the reciprocal square root of the whole row sum plus one. -/
theorem out_closed (c : Dev nD) (t : Fin cfg0.N) (h1 : t.val % 4 = 3) (p : Fin 1024) :
    (outAt0 V c t : Vec Ideal S1024x1 .f32) (ix2 p (0 : Fin 1)) = Cert.Spec.dinvK (adj V c) (rowOf t.val t.isLt p) := by
  have h0 : ¬t.val % 4 = 0 := by omega
  have hc0 : ¬cond0_0 (grid0.coords t) := fun h => h0 ((hcond0_0 t).mp h)
  have hc1 : cond0_1 (grid0.coords t) := (hcond0_1 t).mpr h1
  rw [outAt0_C V c t h1 hc0 hc1]
  refine (congrFun (out_C (F := Ideal) c (grid0.coords t) (ms0_0 t) (hs0_0 t) (ms0_1 t) (hs0_1 t) scM0_0 (Memref.isWhole_whole _) hc0 hc1 (ablk V c t)
    (accAt0 V c (t.val - 1) (Nat.lt_of_le_of_lt (Nat.sub_le _ _) t.isLt))) (ix2 p (0 : Fin 1))).trans ?_
  refine (PayIdx.pay0_3_apply _ p).trans ?_
  show _ = Ideal.rsqrt ((∑ j : Fin 8192, adj V c (rowOf t.val t.isLt p) j) + 1)
  refine congrArg (fun s => Ideal.rsqrt (s + 1)) ?_
  refine (PayIdx.pay0_2_apply (accAt0 V c (t.val - 1) (Nat.lt_of_le_of_lt (Nat.sub_le _ _) t.isLt)) (ablk V c t) p).trans ?_
  rw [← acc_next V c t h0 p, acc_closed V c t.val t.isLt p, h1, Finset.sum_range]
  exact Finset.sum_congr rfl fun j _ => by unfold rowN; rw [dif_pos j.isLt]

/-! ## From the blocks to the array -/

/-- The region's result: the column of inverse square-root degrees. -/
abbrev dinvCol (c : Dev nD) : S8192x1.Idx → EReal :=
  fun i => Cert.Spec.dinvK (adj V c) ⟨(i 0).val, (i 0).isLt⟩

/-- A one-column block is determined by its entries in column 0. -/
theorem col_ext (O : Vec Ideal S1024x1 .f32) (g : Fin 1024 → EReal)
    (h : ∀ p : Fin 1024, O (ix2 p (0 : Fin 1)) = g p) (y : S1024x1.Idx) : O y = g (y 0) := by
  have e : y = ix2 (y 0) (0 : Fin 1) := by
    funext a
    match a with
    | ⟨0, _⟩ => rfl
    | ⟨1, _⟩ => exact Fin.ext (by have h : (y 1).val < 1 := (y 1).isLt; show (y 1).val = 0; omega)
  exact (congrArg O e).trans (h (y 0))

/-- What a last column block writes back is its block of the result column. -/
theorem flushed_eq (c : Dev nD) (t : Fin cfg0.N) (hf : (cfg0.win 1).flush t = true) :
    (dat0 V c).flushed 1 t = ((cfg0.win 1).blk t).view.read (Elt Ideal) (dinvCol V c) := by
  have h1 : t.val % 4 = 3 := (flush0_1 t).mp hf
  have h32 : cfg0.N = 32 := N_0
  have ht := t.isLt
  show (cfg0.win 1).cut (grid0.coords t) ((dat0 V c).after 1 t) = _
  rw [after0_1]
  funext y
  rw [View.read_apply]
  show (outAt0 V c t : Vec Ideal S1024x1 .f32) y = dinvCol V c (((cfg0.win 1).blk t).view.emb y)
  refine (col_ext (outAt0 V c t) (fun p => Cert.Spec.dinvK (adj V c) (rowOf t.val t.isLt p)) (out_closed V c t h1) y).trans ?_
  refine congrArg (Cert.Spec.dinvK (adj V c)) (Fin.ext ?_)
  show t.val / 4 * 1024 + (y 0).val = win0_1.index t (0 : Fin 2) * 1024 + 1 * (y 0).val
  rw [(idx_out t).1]
  omega

/-- An index of the result column is in point t's block iff each coordinate is in the block's range. -/
theorem mem_blk (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- Row i of the result is written back by the last column block of its row block, point 4·(i/1024) + 3. -/
theorem cover (i : S8192x1.Idx) : ∃ t : Fin cfg0.N, (cfg0.win 1).flush t = true ∧ i ∈ ((cfg0.win 1).blk t).view.set := by
  have h32 : cfg0.N = 32 := N_0
  have hi0 : (i 0).val < 8192 := (i 0).isLt
  have hi1 : (i 1).val < 1 := (i 1).isLt
  refine ⟨⟨4 * ((i 0).val / 1024) + 3, by omega⟩, (flush0_1 _).mpr (by show (4 * ((i 0).val / 1024) + 3) % 4 = 3; omega), ?_⟩
  rw [mem_blk]
  intro a
  match a with
  | ⟨0, _⟩ =>
    show win0_1.index ⟨4 * ((i 0).val / 1024) + 3, _⟩ (0 : Fin 2) * 1024 ≤ (i 0).val ∧ (i 0).val < win0_1.index ⟨4 * ((i 0).val / 1024) + 3, _⟩ (0 : Fin 2) * 1024 + 1024
    rw [(idx_out _).1]
    show (4 * ((i 0).val / 1024) + 3) / 4 * 1024 ≤ (i 0).val ∧ (i 0).val < (4 * ((i 0).val / 1024) + 3) / 4 * 1024 + 1024
    omega
  | ⟨1, _⟩ =>
    show win0_1.index ⟨4 * ((i 0).val / 1024) + 3, _⟩ (1 : Fin 2) * 1 ≤ (i 1).val ∧ (i 1).val < win0_1.index ⟨4 * ((i 0).val / 1024) + 3, _⟩ (1 : Fin 2) * 1 + 1
    rw [(idx_out _).2]
    omega

/-- The row-sum region leaves, in its result array, the inverse square-root degree of every row of the adjacency
    matrix it was entered with. -/
theorem dinv_arr (c : Dev nD) :
    (dat0 (F := Ideal) V c).arrAt 1 cfg0.N
      = fun i => Cert.Spec.dinvK (Cert.Spec.mat2 (V c main_arg1)) ⟨(i 0).val, (i 0).isLt⟩ :=
  (dat0 V c).arrAt_eq_of_cover 1 (dinvCol V c) (flushed_eq V c) (cover)

end Cert.KernelIdeal.Val0

end
-- ==== Proof.KI.Val1.lean ====
/-
  What the aggregation kernel leaves in its output array, on the extended reals.

  The kernel runs over a grid of 8 row blocks by 4 column blocks. At the first column block of a row block the
  accumulator is reset and the block product `A_blk · Y_blk` added; at each further column block the block product is
  added to what the point before left; at the last column block the accumulated row `Σ_j A_ij · Y_jf` goes through the
  epilogue — the self-loop term, the scaling by the row's inverse square-root degree, the linear layer, the bias and the
  row normalisation — and the output block is written back. Read entry by entry: a block's entry `(p, q)` at the
  point `t = 4 r + k` is the array's entry `(1024 r + p, 2048 k + q)` (adjacency), `(2048 k + p, q)` (scaled features),
  `(1024 r + p, q)` (degrees, features, output); the four partial sums over 2048 columns add up to the sum over all
  8192; the four write-backs' blocks of each row block tile the output array. So the output array ends holding
  `Spec.tail (Spec.aggG d Y X A) W b` of the arrays the region is entered with.
-/
import proofs.«114102_j90838558311239_1_alg».proof.Proof.KI.Reg1Frame
import proofs.«114102_j90838558311239_1_alg».proof.Proof.KI.PayIdx
import Idealize.ShloMosaic.Lib.Pipeline.Value
import Idealize.ShloMosaic.Lib.ValueIdx
import Idealize.ShloMosaic.Lib.Tactic

set_option maxRecDepth 16384

noncomputable section

namespace Cert.KernelIdeal.Val1

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat)
open scoped BigOperators

theorem hz : (![0, 0] : Fin 2 → Nat) = fun _ => 0 := funext fun a => by fin_cases a <;> rfl

section Pieces
variable {F : FTy → Type} [FloatOps F]

/-- A first column block leaves one accumulation step over the reset value. -/
theorem sout_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) :
    sout1_A_0 c i arg2 harg2 arg3 harg3 arg4 harg4 arg5 harg5 arg6 harg6 arg7 harg7 arg8 harg8 arg9 harg9 hc0 hc1 x0 x1 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1)]
  unfold kernelRun1_A
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x2048) hz, View.ld_unit_zero (S := S2048x128) hz]

/-- A middle column block leaves one accumulation step over what the point before left. -/
theorem sout_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (xs0 : Vec F S1024x128 .f32) :
    sout1_B_0 c i arg2 harg2 arg3 harg3 arg4 harg4 arg5 harg5 arg6 harg6 arg7 harg7 arg8 harg8 arg9 harg9 hc0 hc1 x0 x1 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 xs0)]
  unfold kernelRun1_B
  dsimp only
  sl_unfold_words
  rw [View.canon_unit_zero hz]
  simp only [View.readAt_eq_ld, harg2.read_unread, harg3.read_unread, harg9.read_unread, View.ld_unit_zero (S := S1024x2048) hz, View.ld_unit_zero (S := S2048x128) hz, View.ld_unit_zero (S := S1024x128) hz]

/-- A last column block leaves the same step in the accumulator … -/
theorem sout_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) :
    sout1_C_0 c i arg2 harg2 arg3 harg3 arg4 harg4 arg5 harg5 arg6 harg6 arg7 harg7 arg8 harg8 arg9 harg9 hc0 hc1 x0 x1 x2 x3 x4 x5 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz]
  simp only [View.readAt_eq_ld, harg2.read_unread, harg3.read_unread, harg9.read_unread, View.ld_unit_zero (S := S1024x2048) hz, View.ld_unit_zero (S := S2048x128) hz, View.ld_unit_zero (S := S1024x128) hz]

/-- … and the epilogue of that accumulator in the output block. -/
theorem out_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x1 .f32) (x3 : Vec F S1024x128 .f32) (x4 : Vec F S128x128 .f32) (x5 : Vec F S1x128 .f32) (xs0 : Vec F S1024x128 .f32) :
    out1_C_6 c i arg2 harg2 arg3 harg3 arg4 harg4 arg5 harg5 arg6 harg6 arg7 harg7 arg8 harg8 arg9 harg9 hc0 hc1 x0 x1 x2 x3 x4 x5 xs0 = k1_pay3 x2 x3 (k1_pay2 x0 x1 xs0) x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz]
  simp only [View.readAt_eq_ld, harg2.read_unread, harg3.read_unread, harg4.read_unread, harg5.read_unread, harg6.read_unread, harg7.read_unread, harg9.read_unread, View.readCov_unit_zero (S := S1024x128) _ hz, View.ld_unit_zero (S := S1024x2048) hz, View.ld_unit_zero (S := S2048x128) hz, View.ld_unit_zero (S := S1024x128) hz, View.ld_unit_zero (S := S1024x1) hz, View.ld_unit_zero (S := S128x128) hz, View.ld_unit_zero (S := S1x128) hz]

end Pieces

/-! ## The windows' blocks read at an index -/

section Blocks
open Idealize.ShloMosaic.ValueIdx

variable (V : (c : Dev nD) → (b : Ref sig .tc) → Buf (Elt Ideal) ((c : Thread nD τ).loc b))

/-- The arrays the region is entered with, at their literal types. -/
abbrev arrA (c : Dev nD) : Vec Ideal S8192x8192 .f32 := V c main_arg1
abbrev arrY (c : Dev nD) : Vec Ideal S8192x128 .f32 := V c main_v2
abbrev arrD (c : Dev nD) : Vec Ideal S8192x1 .f32 := V c main_v0
abbrev arrX (c : Dev nD) : Vec Ideal S8192x128 .f32 := V c main_arg0
abbrev arrW (c : Dev nD) : Vec Ideal S128x128 .f32 := V c main_arg2
abbrev arrB (c : Dev nD) : Vec Ideal S1x128 .f32 := V c main_v3

/-- The windows' blocks at a point, at their literal types. -/
abbrev blkA (c : Dev nD) (t : Fin cfg1.N) : Vec Ideal S1024x2048 .f32 := iblk1 V c 0 t
abbrev blkY (c : Dev nD) (t : Fin cfg1.N) : Vec Ideal S2048x128 .f32 := iblk1 V c 1 t
abbrev blkD (c : Dev nD) (t : Fin cfg1.N) : Vec Ideal S1024x1 .f32 := iblk1 V c 2 t
abbrev blkX (c : Dev nD) (t : Fin cfg1.N) : Vec Ideal S1024x128 .f32 := iblk1 V c 3 t
abbrev blkW (c : Dev nD) (t : Fin cfg1.N) : Vec Ideal S128x128 .f32 := iblk1 V c 4 t
abbrev blkB (c : Dev nD) (t : Fin cfg1.N) : Vec Ideal S1x128 .f32 := iblk1 V c 5 t

/-- The printed index maps over the grid: the row block is the point's quotient by 4, the column block its remainder. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

theorem blkA_apply (c : Dev nD) (t : Fin cfg1.N) (r k : ℕ) (hr : t.val / 4 = r) (hk : t.val % 4 = k) (p : Fin 1024) (j : Fin 2048)
    (hi : r * 1024 + p.val < 8192) (hj : k * 2048 + j.val < 8192) :
    blkA V c t (ix2 p j) = arrA V c (ix2 ⟨r * 1024 + p.val, hi⟩ ⟨k * 2048 + j.val, hj⟩) := by
  obtain ⟨e0, e1, -⟩ := idx_facts t
  unfold blkA iblk1
  rw [View.read_apply]
  show V c main_arg1 _ = V c main_arg1 _
  congr 1
  funext a
  apply Fin.ext
  match a with
  | ⟨0, _⟩ => show win1_0.index t (0 : Fin 2) * 1024 + 1 * p.val = r * 1024 + p.val; rw [e0, hr]; omega
  | ⟨1, _⟩ => show win1_0.index t (1 : Fin 2) * 2048 + 1 * j.val = k * 2048 + j.val; rw [e1, hk]; omega

theorem blkY_apply (c : Dev nD) (t : Fin cfg1.N) (k : ℕ) (hk : t.val % 4 = k) (j : Fin 2048) (f : Fin 128)
    (hj : k * 2048 + j.val < 8192) :
    blkY V c t (ix2 j f) = arrY V c (ix2 ⟨k * 2048 + j.val, hj⟩ f) := by
  obtain ⟨-, -, e0, e1, -⟩ := idx_facts t
  unfold blkY iblk1
  rw [View.read_apply]
  show V c main_v2 _ = V c main_v2 _
  congr 1
  funext a
  apply Fin.ext
  match a with
  | ⟨0, _⟩ => show win1_1.index t (0 : Fin 2) * 2048 + 1 * j.val = k * 2048 + j.val; rw [e0, hk]; omega
  | ⟨1, _⟩ => show win1_1.index t (1 : Fin 2) * 128 + 1 * f.val = f.val; rw [e1]; omega

theorem blkD_apply (c : Dev nD) (t : Fin cfg1.N) (r : ℕ) (hr : t.val / 4 = r) (p : Fin 1024)
    (hi : r * 1024 + p.val < 8192) :
    blkD V c t (ix2 p (0 : Fin 1)) = arrD V c (ix2 ⟨r * 1024 + p.val, hi⟩ (0 : Fin 1)) := by
  obtain ⟨-, -, -, -, e0, e1, -⟩ := idx_facts t
  unfold blkD iblk1
  rw [View.read_apply]
  show V c main_v0 _ = V c main_v0 _
  congr 1
  funext a
  apply Fin.ext
  match a with
  | ⟨0, _⟩ => show win1_2.index t (0 : Fin 2) * 1024 + 1 * p.val = r * 1024 + p.val; rw [e0, hr]; omega
  | ⟨1, _⟩ => show win1_2.index t (1 : Fin 2) * 1 + 1 * 0 = 0; rw [e1]

theorem blkX_apply (c : Dev nD) (t : Fin cfg1.N) (r : ℕ) (hr : t.val / 4 = r) (p : Fin 1024) (f : Fin 128)
    (hi : r * 1024 + p.val < 8192) :
    blkX V c t (ix2 p f) = arrX V c (ix2 ⟨r * 1024 + p.val, hi⟩ f) := by
  obtain ⟨-, -, -, -, -, -, e0, e1, -⟩ := idx_facts t
  unfold blkX iblk1
  rw [View.read_apply]
  show V c main_arg0 _ = V c main_arg0 _
  congr 1
  funext a
  apply Fin.ext
  match a with
  | ⟨0, _⟩ => show win1_3.index t (0 : Fin 2) * 1024 + 1 * p.val = r * 1024 + p.val; rw [e0, hr]; omega
  | ⟨1, _⟩ => show win1_3.index t (1 : Fin 2) * 128 + 1 * f.val = f.val; rw [e1]; omega

theorem blkW_apply (c : Dev nD) (t : Fin cfg1.N) (g f : Fin 128) :
    blkW V c t (ix2 g f) = arrW V c (ix2 g f) := by
  obtain ⟨-, -, -, -, -, -, -, -, e0, e1, -⟩ := idx_facts t
  unfold blkW iblk1
  rw [View.read_apply]
  show V c main_arg2 _ = V c main_arg2 _
  congr 1
  funext a
  apply Fin.ext
  match a with
  | ⟨0, _⟩ => show win1_4.index t (0 : Fin 2) * 128 + 1 * g.val = g.val; rw [e0]; omega
  | ⟨1, _⟩ => show win1_4.index t (1 : Fin 2) * 128 + 1 * f.val = f.val; rw [e1]; omega

theorem blkB_apply (c : Dev nD) (t : Fin cfg1.N) (g : Fin 128) :
    blkB V c t (ix2 (0 : Fin 1) g) = arrB V c (ix2 (0 : Fin 1) g) := by
  obtain ⟨-, -, -, -, -, -, -, -, -, -, e0, e1, -⟩ := idx_facts t
  unfold blkB iblk1
  rw [View.read_apply]
  show V c main_v3 _ = V c main_v3 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * g.val = g.val; rw [e1]; omega

end Blocks

/-! ## The accumulator over the four column blocks of a row block -/

/-- A sum over 8192 positions is the sum of its four consecutive stretches of 2048, added first to last from zero. -/
theorem sum_four_blocks (g : Fin 8192 → EReal) :
    ∑ j : Fin 8192, g j
      = (((0 + ∑ j : Fin 2048, g ⟨0 * 2048 + j.val, by have := j.isLt; omega⟩)
            + ∑ j : Fin 2048, g ⟨1 * 2048 + j.val, by have := j.isLt; omega⟩)
          + ∑ j : Fin 2048, g ⟨2 * 2048 + j.val, by have := j.isLt; omega⟩)
        + ∑ j : Fin 2048, g ⟨3 * 2048 + j.val, by have := j.isLt; omega⟩ := by
  have e : ∑ j : Fin 8192, g j = ∑ x : Fin 4 × Fin 2048, g (finProdFinEquiv x) :=
    (Equiv.sum_comp (finProdFinEquiv (m := 4) (n := 2048)) g).symm
  rw [e, Fintype.sum_prod_type, Fin.sum_univ_four, zero_add]
  refine congrArg₂ (· + ·) (congrArg₂ (· + ·) (congrArg₂ (· + ·) ?_ ?_) ?_) ?_
  · exact Finset.sum_congr rfl fun j _ => congrArg g (Fin.ext (by show j.val + 2048 * 0 = 0 * 2048 + j.val; omega))
  · exact Finset.sum_congr rfl fun j _ => congrArg g (Fin.ext (by show j.val + 2048 * 1 = 1 * 2048 + j.val; omega))
  · exact Finset.sum_congr rfl fun j _ => congrArg g (Fin.ext (by show j.val + 2048 * 2 = 2 * 2048 + j.val; omega))
  · exact Finset.sum_congr rfl fun j _ => congrArg g (Fin.ext (by show j.val + 2048 * 3 = 3 * 2048 + j.val; omega))

section Acc
open Idealize.ShloMosaic.ValueIdx

variable (V : (c : Dev nD) → (b : Ref sig .tc) → Buf (Elt Ideal) ((c : Thread nD τ).loc b))

/-- After a first column block the accumulator holds that block's product. -/
theorem acc_first (c : Dev nD) (t : Fin cfg1.N) (h0 : t.val % 4 = 0) (p : Fin 1024) (f : Fin 128) :
    (accAt1 V c t.val t.isLt : Vec Ideal S1024x128 .f32) (ix2 p f)
      = 0 + ∑ j : Fin 2048, blkA V c t (ix2 p j) * blkY V c t (ix2 j f) := by
  have hc0 : cond1_0 (grid1.coords t) := (hcond1_0 t).mpr h0
  have hc1 : ¬cond1_1 (grid1.coords t) := fun h => by have := (hcond1_1 t).mp h; omega
  rw [accAt1_A V c t h0 hc0 hc1]
  refine (congrFun (sout_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (blkA V c t) (blkY V c t)) (ix2 p f)).trans ?_
  refine (PayIdx.pay1_2_apply (blkA V c t) (blkY V c t) (k1_pay1 (F := Ideal)) p f).trans ?_
  exact congrArg (· + _) (PayIdx.pay1_1_apply p f)

/-- After a middle column block it holds what the point before left plus this block's product. -/
theorem acc_next (c : Dev nD) (t : Fin cfg1.N) (h0 : ¬t.val % 4 = 0) (h1 : ¬t.val % 4 = 3) (p : Fin 1024) (f : Fin 128) :
    (accAt1 V c t.val t.isLt : Vec Ideal S1024x128 .f32) (ix2 p f)
      = (accAt1 V c (t.val - 1) (Nat.lt_of_le_of_lt (Nat.sub_le _ _) t.isLt) : Vec Ideal S1024x128 .f32) (ix2 p f)
        + ∑ j : Fin 2048, blkA V c t (ix2 p j) * blkY V c t (ix2 j f) := by
  have hc0 : ¬cond1_0 (grid1.coords t) := fun h => h0 ((hcond1_0 t).mp h)
  have hc1 : ¬cond1_1 (grid1.coords t) := fun h => h1 ((hcond1_1 t).mp h)
  rw [accAt1_B V c t h0 h1 hc0 hc1]
  refine (congrFun (sout_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (blkA V c t) (blkY V c t) (accAt1 V c (t.val - 1) (Nat.lt_of_le_of_lt (Nat.sub_le _ _) t.isLt))) (ix2 p f)).trans ?_
  exact PayIdx.pay1_2_apply (blkA V c t) (blkY V c t) (accAt1 V c (t.val - 1) (Nat.lt_of_le_of_lt (Nat.sub_le _ _) t.isLt)) p f

/-- A position inside one of the four stretches of 2048 is below 8192. -/
theorem stretch_lt (k : ℕ) (hk : k < 4) (j : Fin 2048) : k * 2048 + j.val < 8192 := by have := j.isLt; omega

/-- At a last column block the accumulation step's result is the whole row of the product `A · Y`. -/
theorem acc_total (c : Dev nD) (t : Fin cfg1.N) (h3 : t.val % 4 = 3) (p : Fin 1024) (f : Fin 128)
    (hi : t.val / 4 * 1024 + p.val < 8192) :
    k1_pay2 (F := Ideal) (blkA V c t) (blkY V c t) (accAt1 V c (t.val - 1) (Nat.lt_of_le_of_lt (Nat.sub_le _ _) t.isLt)) (ix2 p f)
      = ∑ j : Fin 8192, arrA V c (ix2 ⟨t.val / 4 * 1024 + p.val, hi⟩ j) * arrY V c (ix2 j f) := by
  have hN : t.val < 32 := lt_of_lt_of_eq t.isLt (show cfg1.N = 32 from N_1)
  have b1 : ¬(t.val - 1) % 4 = 0 := by omega
  have b1' : ¬(t.val - 1) % 4 = 3 := by omega
  have b2 : ¬(t.val - 1 - 1) % 4 = 0 := by omega
  have b2' : ¬(t.val - 1 - 1) % 4 = 3 := by omega
  have b3 : (t.val - 1 - 1 - 1) % 4 = 0 := by omega
  have q1 : (t.val - 1) / 4 = t.val / 4 := by omega
  have q2 : (t.val - 1 - 1) / 4 = t.val / 4 := by omega
  have q3 : (t.val - 1 - 1 - 1) / 4 = t.val / 4 := by omega
  have r1 : (t.val - 1) % 4 = 2 := by omega
  have r2 : (t.val - 1 - 1) % 4 = 1 := by omega
  have l1 : t.val - 1 < cfg1.N := Nat.lt_of_le_of_lt (Nat.sub_le _ _) t.isLt
  have l2 : t.val - 1 - 1 < cfg1.N := Nat.lt_of_le_of_lt (Nat.sub_le _ _) l1
  have l3 : t.val - 1 - 1 - 1 < cfg1.N := Nat.lt_of_le_of_lt (Nat.sub_le _ _) l2
  have e1 := acc_next V c ⟨t.val - 1, l1⟩ b1 b1' p f
  have e2 := acc_next V c ⟨t.val - 1 - 1, l2⟩ b2 b2' p f
  have e3 := acc_first V c ⟨t.val - 1 - 1 - 1, l3⟩ b3 p f
  dsimp only at e1 e2 e3
  rw [PayIdx.pay1_2_apply (blkA V c t) (blkY V c t) (accAt1 V c (t.val - 1) (Nat.lt_of_le_of_lt (Nat.sub_le _ _) t.isLt)) p f,
    e1, e2, e3, sum_four_blocks]
  refine congrArg₂ (· + ·) (congrArg₂ (· + ·) (congrArg₂ (· + ·) (congrArg₂ (· + ·) rfl ?_) ?_) ?_) ?_
  · exact Finset.sum_congr rfl fun j _ => by
      rw [blkA_apply V c ⟨t.val - 1 - 1 - 1, l3⟩ (t.val / 4) 0 q3 b3 p j hi (stretch_lt 0 (by decide) j),
        blkY_apply V c ⟨t.val - 1 - 1 - 1, l3⟩ 0 b3 j f (stretch_lt 0 (by decide) j)]
  · exact Finset.sum_congr rfl fun j _ => by
      rw [blkA_apply V c ⟨t.val - 1 - 1, l2⟩ (t.val / 4) 1 q2 r2 p j hi (stretch_lt 1 (by decide) j),
        blkY_apply V c ⟨t.val - 1 - 1, l2⟩ 1 r2 j f (stretch_lt 1 (by decide) j)]
  · exact Finset.sum_congr rfl fun j _ => by
      rw [blkA_apply V c ⟨t.val - 1, l1⟩ (t.val / 4) 2 q1 r1 p j hi (stretch_lt 2 (by decide) j),
        blkY_apply V c ⟨t.val - 1, l1⟩ 2 r1 j f (stretch_lt 2 (by decide) j)]
  · exact Finset.sum_congr rfl fun j _ => by
      rw [blkA_apply V c t (t.val / 4) 3 rfl h3 p j hi (stretch_lt 3 (by decide) j),
        blkY_apply V c t 3 h3 j f (stretch_lt 3 (by decide) j)]

end Acc

/-! ## The output block, the write-backs and the array -/

section Out
open Idealize.ShloMosaic.ValueIdx

variable (V : (c : Dev nD) → (b : Ref sig .tc) → Buf (Elt Ideal) ((c : Thread nD τ).loc b))

/-- What the output array ends holding: the kernel's arrangement of the aggregation from the arrays the region is
    entered with, through the linear layer, the bias and the normalisation. -/
abbrev G (c : Dev nD) : Vec Ideal S8192x128 .f32 := fun i =>
  Cert.Spec.tail (Cert.Spec.aggG (fun r => arrD V c (ix2 r (0 : Fin 1))) (Cert.Spec.mat2 (arrY V c)) (Cert.Spec.mat2 (arrX V c)) (Cert.Spec.mat2 (arrA V c)))
    (Cert.Spec.mat2 (arrW V c)) (fun g => arrB V c (ix2 (0 : Fin 1) g)) ⟨(i 0).val, (i 0).isLt⟩ ⟨(i 1).val, (i 1).isLt⟩

/-- The output block at a last column block, entry by entry: row `p` of the block is row `(t / 4) · 1024 + p` of `G`. -/
theorem out_blk_apply (c : Dev nD) (t : Fin cfg1.N) (h3 : t.val % 4 = 3) (p : Fin 1024) (g : Fin 128)
    (hi : t.val / 4 * 1024 + p.val < 8192) :
    (outAt1 V c t : Vec Ideal S1024x128 .f32) (ix2 p g) = G V c (ix2 ⟨t.val / 4 * 1024 + p.val, hi⟩ g) := by
  have hc0 : ¬cond1_0 (grid1.coords t) := fun h => by have := (hcond1_0 t).mp h; omega
  have hc1 : cond1_1 (grid1.coords t) := (hcond1_1 t).mpr h3
  rw [outAt1_C V c t h3 hc0 hc1]
  refine (congrFun (out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) hc0 hc1 (blkA V c t) (blkY V c t) (blkD V c t) (blkX V c t) (blkW V c t) (blkB V c t) (accAt1 V c (t.val - 1) (Nat.lt_of_le_of_lt (Nat.sub_le _ _) t.isLt))) (ix2 p g)).trans ?_
  refine (PayIdx.pay1_3_apply (blkD V c t) (blkX V c t) (k1_pay2 (F := Ideal) (blkA V c t) (blkY V c t) (accAt1 V c (t.val - 1) (Nat.lt_of_le_of_lt (Nat.sub_le _ _) t.isLt))) (blkW V c t) (blkB V c t) p g).trans ?_
  show _ = Cert.Spec.rowTail (Cert.Spec.aggG (fun r => arrD V c (ix2 r (0 : Fin 1))) (Cert.Spec.mat2 (arrY V c)) (Cert.Spec.mat2 (arrX V c)) (Cert.Spec.mat2 (arrA V c)) ⟨t.val / 4 * 1024 + p.val, hi⟩)
    (Cert.Spec.mat2 (arrW V c)) (fun g' => arrB V c (ix2 (0 : Fin 1) g')) g
  have hW : Cert.Spec.mat2 (blkW V c t) = Cert.Spec.mat2 (arrW V c) := funext fun a => funext fun b => blkW_apply V c t a b
  have hB : (fun g' => blkB V c t (ix2 (0 : Fin 1) g')) = fun g' => arrB V c (ix2 (0 : Fin 1) g') := funext fun g' => blkB_apply V c t g'
  rw [hW, hB]
  refine congrArg (fun h => Cert.Spec.rowTail h (Cert.Spec.mat2 (arrW V c)) (fun g' => arrB V c (ix2 (0 : Fin 1) g')) g) (funext fun f => ?_)
  beta_reduce
  rw [acc_total V c t h3 p f hi, blkD_apply V c t (t.val / 4) rfl p hi, blkX_apply V c t (t.val / 4) rfl p f hi]
  rfl

/-- The write-back at a last column block writes block `t` of `G`. -/
theorem flushed_eq (c : Dev nD) (t : Fin cfg1.N) (hf : (cfg1.win 6).flush t = true) :
    (dat1 V c).flushed 6 t = ((cfg1.win 6).blk t).view.read (Elt Ideal) (G V c) := by
  have h3 : t.val % 4 = 3 := (flush1_6 t).mp hf
  have hN : t.val < 32 := lt_of_lt_of_eq t.isLt (show cfg1.N = 32 from N_1)
  obtain ⟨-, -, -, -, -, -, -, -, -, -, -, -, e0, e1⟩ := idx_facts t
  show (cfg1.win 6).cut (grid1.coords t) ((dat1 V c).after 6 t) = _
  rw [after1_6]
  funext j
  rw [View.read_apply]
  have hj0 : (j 0).val < 1024 := (j 0).isLt
  have hj1 : (j 1).val < 128 := (j 1).isLt
  have hi : t.val / 4 * 1024 + (j 0).val < 8192 := by omega
  have hx : ((cfg1.win 6).xinj (grid1.coords t) j : S1024x128.Idx) = ix2 ⟨(j 0).val, hj0⟩ ⟨(j 1).val, hj1⟩ :=
    funext fun a => by match a with | ⟨0, _⟩ => rfl | ⟨1, _⟩ => rfl
  show (outAt1 V c t : Vec Ideal S1024x128 .f32) ((cfg1.win 6).xinj (grid1.coords t) j) = G V c (((cfg1.win 6).blk t).view.emb j)
  rw [hx, out_blk_apply V c t h3 ⟨(j 0).val, hj0⟩ ⟨(j 1).val, hj1⟩ hi]
  congr 1
  funext a
  apply Fin.ext
  match a with
  | ⟨0, _⟩ => show t.val / 4 * 1024 + (j 0).val = win1_6.index t (0 : Fin 2) * 1024 + 1 * (j 0).val; rw [e0]; omega
  | ⟨1, _⟩ => show (j 1).val = win1_6.index t (1 : Fin 2) * 128 + 1 * (j 1).val; rw [e1]; omega

/-- An index of the array is in point `t`'s block iff each coordinate is in the block's range on its axis. -/
theorem mem_blk (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v4).slice (win1_6.rect t)).set ↔ _
  rw [View.set_slice_whole, Rect.mem_set_unit]
  exact Iff.rfl

/-- Every index of the array is in the block of the last column block's point of its row block. -/
theorem cover (i : S8192x128.Idx) : ∃ t : Fin cfg1.N, (cfg1.win 6).flush t = true ∧ i ∈ ((cfg1.win 6).blk t).view.set := by
  have hi0 : (i 0).val < 8192 := (i 0).isLt
  have hi1 : (i 1).val < 128 := (i 1).isLt
  have hN : cfg1.N = 32 := N_1
  have ht : 4 * ((i 0).val / 1024) + 3 < cfg1.N := by rw [hN]; omega
  refine ⟨⟨4 * ((i 0).val / 1024) + 3, ht⟩, (flush1_6 _).mpr (by show (4 * ((i 0).val / 1024) + 3) % 4 = 3; omega), ?_⟩
  obtain ⟨-, -, -, -, -, -, -, -, -, -, -, -, e0, e1⟩ := idx_facts ⟨4 * ((i 0).val / 1024) + 3, ht⟩
  rw [mem_blk]
  intro a
  match a with
  | ⟨0, _⟩ =>
    show win1_6.index ⟨4 * ((i 0).val / 1024) + 3, ht⟩ (0 : Fin 2) * 1024 ≤ (i 0).val ∧ (i 0).val < win1_6.index ⟨4 * ((i 0).val / 1024) + 3, ht⟩ (0 : Fin 2) * 1024 + 1024
    rw [e0]; dsimp only; omega
  | ⟨1, _⟩ =>
    show win1_6.index ⟨4 * ((i 0).val / 1024) + 3, ht⟩ (1 : Fin 2) * 128 ≤ (i 1).val ∧ (i 1).val < win1_6.index ⟨4 * ((i 0).val / 1024) + 3, ht⟩ (1 : Fin 2) * 128 + 128
    rw [e1]; omega

/-- The output array after the region. -/
theorem out_arr_G (c : Dev nD) : (dat1 (F := Ideal) V c).arrAt 6 cfg1.N = G V c :=
  (dat1 V c).arrAt_eq_of_cover 6 (G V c) (flushed_eq V c) (cover)

/-- The same, with the arrays spelled as the region finds them. -/
theorem out_arr (c : Dev nD) :
    (dat1 (F := Ideal) V c).arrAt 6 cfg1.N = fun i =>
      Cert.Spec.tail (Cert.Spec.aggG (fun r => V c main_v0 (ValueIdx.ix2 r (0 : Fin 1))) (Cert.Spec.mat2 (V c main_v2)) (Cert.Spec.mat2 (V c main_arg0)) (Cert.Spec.mat2 (V c main_arg1)))
        (Cert.Spec.mat2 (V c main_arg2)) (fun g => V c main_v3 (ValueIdx.ix2 (0 : Fin 1) g)) ⟨(i 0).val, (i 0).isLt⟩ ⟨(i 1).val, (i 1).isLt⟩ :=
  out_arr_G V c

end Out

end Cert.KernelIdeal.Val1

end
-- ==== Proof.KI.KValue.lean ====
/-
  The idealized kernel's result as a function of the launch memory: region 1's output array is the common tail
  (linear layer, bias, row normalisation) of the aggregation `d_i · (Σ_j A_ij · Y_jf + d_i · X_if)`, with `d` what
  region 0 left (the inverse square-root degrees) and `Y = d · X` what the host operations between the regions made
  of it: the kernel's arrangement `Spec.outK` of the four inputs.
-/
import proofs.«114102_j90838558311239_1_alg».proof.Proof.KI.HostVals
import proofs.«114102_j90838558311239_1_alg».proof.Proof.KI.Val0
import proofs.«114102_j90838558311239_1_alg».proof.Proof.KI.Val1
import proofs.«114102_j90838558311239_1_alg».proof.Proof.SpecK

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Reg0 Cert.KernelIdeal.Reg1 Cert.KernelIdeal.Run Cert.KernelIdeal.HostVals
open Idealize.ShloMosaic.ValueIdx

variable (m : (ℓ : Loc nD τ sig) → Buf (Elt Ideal) ℓ)

/-- The four inputs as matrices and a vector. -/
abbrev Xm (c : Dev nD) : Fin 8192 → Fin 128 → EReal := Cert.Spec.mat2 (m ((c : Thread nD τ).loc main_arg0) : S8192x128.Idx → EReal)
abbrev Am (c : Dev nD) : Fin 8192 → Fin 8192 → EReal := Cert.Spec.mat2 (m ((c : Thread nD τ).loc main_arg1) : S8192x8192.Idx → EReal)
abbrev Wm (c : Dev nD) : Fin 128 → Fin 128 → EReal := Cert.Spec.mat2 (m ((c : Thread nD τ).loc main_arg2) : S128x128.Idx → EReal)
abbrev Bm (c : Dev nD) : Fin 128 → EReal := Cert.Spec.vec1 (m ((c : Thread nD τ).loc main_arg3) : S128.Idx → EReal)

/-- What region 0 left: the inverse square-root degree of row `r`. -/
theorem d_eq (c : Dev nD) (r : Fin 8192) :
    (V2 m c main_v0 : S8192x1.Idx → EReal) (ix2 r (0 : Fin 1)) = Cert.Spec.dinvK (Am m c) r := by
  rw [V2_main_v0, Cert.KernelIdeal.Val0.dinv_arr]
  rfl

/-- The scaled features at an entry. -/
theorem y_eq (c : Dev nD) (j : Fin 8192) (f : Fin 128) :
    (V2 m c main_v2 : S8192x128.Idx → EReal) (ix2 j f) = Cert.Spec.dinvK (Am m c) j * Xm m c j f := by
  rw [V2_main_v2]
  show FloatOps.mulf (F := Ideal) ((broadcastInDim S8192x128 ![0, 1] bcast_S8192x1_S8192x128_0_1 ((dat0 (V0 m) c).arrAt 1 cfg0.N : S8192x1.Idx → EReal)) (ix2 j f)) _ = _
  rw [broadcastInDim_apply _ bcast_S8192x1_S8192x128_0_1 _ (ix2 j f) (ix2 j (0 : Fin 1)) (fun a => match a with
    | ⟨0, _⟩ => by show j.val = if (8192 : Nat) = 1 then 0 else j.val; rw [if_neg (by decide)]
    | ⟨1, _⟩ => by show 0 = if (1 : Nat) = 1 then 0 else f.val; rw [if_pos rfl])]
  rw [Cert.KernelIdeal.Val0.dinv_arr]
  rfl

/-- The bias row at an entry. -/
theorem b_eq (c : Dev nD) (g : Fin 128) :
    (V2 m c main_v3 : S1x128.Idx → EReal) (ix2 (0 : Fin 1) g) = Bm m c g := by
  rw [V2_main_v3]
  exact shapeCast_a_1a_apply _ shapeCasts_S128_S1x128 (0 : Fin 1) g

/-- The result array is the kernel's arrangement of the inputs. -/
theorem result_eq (c : Dev nD) :
    (dat1 (V2 m) c).arrAt 6 cfg1.N = fun i => Cert.Spec.outK (Xm m c) (Am m c) (Wm m c) (Bm m c) ⟨(i 0).val, (i 0).isLt⟩ ⟨(i 1).val, (i 1).isLt⟩ := by
  rw [Cert.KernelIdeal.Val1.out_arr]
  funext i
  unfold Cert.Spec.outK
  rw [Cert.Spec.aggK_eq_aggG]
  have hd : (fun r => (V2 m c main_v0 : S8192x1.Idx → EReal) (ix2 r (0 : Fin 1))) = Cert.Spec.dinvK (Am m c) := funext fun r => d_eq m c r
  have hy : Cert.Spec.mat2 (V2 m c main_v2 : S8192x128.Idx → EReal) = fun j f => Cert.Spec.dinvK (Am m c) j * Xm m c j f := funext fun j => funext fun f => y_eq m c j f
  have hb : (fun g => (V2 m c main_v3 : S1x128.Idx → EReal) (ix2 (0 : Fin 1) g)) = Bm m c := funext fun g => b_eq m c g
  rw [hd, hy, hb, V2_main_arg0, V2_main_arg1, V2_main_arg2]

end Cert.KernelIdeal.KValue

end
-- ==== Proof.RefValue.lean ====
/-
  The reference program's result at the ideal values, read index by index: the generated reading of its 33 operations,
  chained from the last operation back to the inputs, is the plain function Spec.outR of the four inputs.
  The steps: the identity matrix (a comparison of the row and column counters, converted to a float) is the indicator
  of the diagonal; the degree of a row is the row sum of the adjacency matrix with self loops; the matrix is scaled on
  both sides by the inverse square-root degrees; the aggregation and the linear layer are the two contractions, the
  second against the transposed weights; the tail divides each row by the larger of its Euclidean norm and the floor.
-/
import proofs.«114102_j90838558311239_1_alg».proof.Proof.Gen.ReferenceIdeal.Read
import proofs.«114102_j90838558311239_1_alg».proof.Proof.Spec
import Idealize.ShloMosaic.Lib.StableHlo.Predicate
import Idealize.ShloMosaic.Lib.ValueIdx
import Idealize.ShloMosaic.PureOps.Ideal
import Idealize.ShloMosaic.PureOps.Ideal.Laws

noncomputable section

namespace Cert.RefValue

open Idealize.ShloMosaic Cert.ReferenceIdeal Cert.ReferenceIdeal.Read
open Idealize.ShloMosaic.ValueIdx (ix1 ix2)

/-! ## The identity matrix -/

/-- An unsigned conversion of a bit to a float, at the ideal values, is the bit's number. -/
theorem uitofp_bit (b : BitVec 1) : FloatOps.uitofp (F := Ideal) .f32 b = ((b.toNat : ℝ) : EReal) := rfl

/-- Two counters below 8192 are equal as 32-bit words exactly when they are equal, so the comparison's bit, read as a
    number, is the indicator of the diagonal. -/
theorem eye_bit (i j : Fin 8192) :
    (((IntOp.cmpi .eq (IntOp.addi (BitVec.ofNat 32 i.val) 0#32) (BitVec.ofNat 32 j.val)).toNat : ℝ) : EReal)
      = if i = j then 1 else 0 := by
  have h0 : IntOp.addi (BitVec.ofNat 32 i.val) 0#32 = BitVec.ofNat 32 i.val := by
    unfold IntOp.addi; exact BitVec.add_zero _
  rw [h0]
  by_cases h : i = j
  · subst h
    rw [if_pos rfl, StableHlo.Predicate.cmpi_eq_iff.mpr rfl]
    show (((1 : ℕ) : ℝ) : EReal) = 1
    rw [Nat.cast_one, EReal.coe_one]
  · rw [if_neg h]
    have hne : ¬ IntOp.cmpi .eq (BitVec.ofNat 32 i.val) (BitVec.ofNat 32 j.val) = 1#1 := by
      rw [StableHlo.Predicate.cmpi_eq_iff]
      intro e
      apply h
      have e' := congrArg BitVec.toNat e
      simp only [BitVec.toNat_ofNat] at e'
      have hi := i.isLt
      have hj := j.isLt
      apply Fin.ext
      omega
    rw [ValueIdx.eq_zero_of_ne_one hne]
    show (((0 : ℕ) : ℝ) : EReal) = 0
    rw [Nat.cast_zero, EReal.coe_zero]

/-- The converted comparison of the two counters at row `i`, column `j`. -/
theorem v5_at (i j : Fin 8192) :
    val_main_v5 (F := Ideal) (ix2 i j) = if i = j then 1 else 0 := by
  rw [val_main_v5_apply, val_main_v4_apply, val_main_v3_apply, val_main_v0_apply, val_main_v1_apply,
    val_main_v2_apply, val_main_c_apply, uitofp_bit]
  exact eye_bit i j

/-! ## The adjacency matrix with self loops, its degrees and the scaled matrix -/

theorem v6_at (x1 : (⟨S8192x8192, .f32⟩ : BufTy).Contents (Elt Ideal)) (i j : Fin 8192) :
    val_main_v6 (F := Ideal) x1 (ix2 i j) = Spec.adjI (Spec.mat2 x1) i j := by
  show _ = x1 (ix2 i j) + (if i = j then 1 else 0)
  rw [val_main_v6_apply, v5_at, Ideal.addf_def]

theorem idx7_eq (i k : Fin 8192) : idx_main_v7 (ix1 i) k = ix2 i k :=
  funext fun a => Fin.ext (by match a with | ⟨0, _⟩ => rfl | ⟨1, _⟩ => rfl)

/-- The degree of row `i`: the row sum of the matrix with self loops (the sum's initial value is zero). -/
theorem v7_at (x1 : (⟨S8192x8192, .f32⟩ : BufTy).Contents (Elt Ideal)) (i : Fin 8192) :
    val_main_v7 (F := Ideal) x1 (ix1 i) = ∑ j : Fin 8192, Spec.adjI (Spec.mat2 x1) i j := by
  rw [val_main_v7_apply, val_main_cst_apply, Ideal.ofBits_def, Ideal.ofBits_zero_f32, zero_add]
  exact Finset.sum_congr rfl fun k _ => by rw [idx7_eq, v6_at]

theorem v8_at (x1 : (⟨S8192x8192, .f32⟩ : BufTy).Contents (Elt Ideal)) (i : Fin 8192) :
    val_main_v8 (F := Ideal) x1 (ix1 i) = Spec.dinvR (Spec.mat2 x1) i := by
  show _ = Ideal.rsqrt (∑ j : Fin 8192, Spec.adjI (Spec.mat2 x1) i j)
  rw [val_main_v8_apply, Ideal.hostUnary_rsqrt_def, v7_at]

theorem idx10_eq (i j : Fin 8192) : idx_main_v9 (idx_main_v10 (ix2 i j)) = ix1 i :=
  funext fun a => Fin.ext (by match a with | ⟨0, _⟩ => rfl)

theorem idx13_eq (i j : Fin 8192) : idx_main_v12 (idx_main_v13 (ix2 i j)) = ix1 j :=
  funext fun a => Fin.ext (by match a with | ⟨0, _⟩ => rfl)

/-- The matrix scaled by the inverse square-root degree of its row, then of its column. -/
theorem v14_at (x1 : (⟨S8192x8192, .f32⟩ : BufTy).Contents (Elt Ideal)) (i j : Fin 8192) :
    val_main_v14 (F := Ideal) x1 (ix2 i j)
      = (Spec.adjI (Spec.mat2 x1) i j * Spec.dinvR (Spec.mat2 x1) i) * Spec.dinvR (Spec.mat2 x1) j := by
  rw [val_main_v14_apply, val_main_v11_apply, val_main_v10_apply, val_main_v9_apply, val_main_v13_apply,
    val_main_v12_apply, idx10_eq, idx13_eq, v6_at, v8_at, v8_at, Ideal.mulf_def, Ideal.mulf_def]

/-! ## The aggregation and the linear layer -/

theorem lidx15_eq (i : Fin 8192) (f : Fin 128) (k : Fin 8192) : lidx_main_v15 (ix2 i f) k = ix2 i k :=
  funext fun a => Fin.ext (by match a with | ⟨0, _⟩ => rfl | ⟨1, _⟩ => rfl)

theorem ridx15_eq (i : Fin 8192) (f : Fin 128) (k : Fin 8192) : ridx_main_v15 (ix2 i f) k = ix2 k f :=
  funext fun a => Fin.ext (by match a with | ⟨0, _⟩ => rfl | ⟨1, _⟩ => rfl)

theorem v15_at (x0 : (⟨S8192x128, .f32⟩ : BufTy).Contents (Elt Ideal))
    (x1 : (⟨S8192x8192, .f32⟩ : BufTy).Contents (Elt Ideal)) (i : Fin 8192) (f : Fin 128) :
    val_main_v15 (F := Ideal) x0 x1 (ix2 i f) = Spec.aggR (Spec.mat2 x0) (Spec.mat2 x1) i f := by
  show _ = ∑ j : Fin 8192, ((Spec.adjI (Spec.mat2 x1) i j * Spec.dinvR (Spec.mat2 x1) i) * Spec.dinvR (Spec.mat2 x1) j)
    * x0 (ix2 j f)
  rw [val_main_v15_apply]
  exact Finset.sum_congr rfl fun k _ => by rw [lidx15_eq, ridx15_eq, v14_at]

theorem lidx17_eq (i : Fin 8192) (g : Fin 128) (k : Fin 128) : lidx_main_v17 (ix2 i g) k = ix2 i k :=
  funext fun a => Fin.ext (by match a with | ⟨0, _⟩ => rfl | ⟨1, _⟩ => rfl)

/-- The second contraction reads the transposed weights: row `g`, column `k` of the weights as given. -/
theorem ridx17_eq (i : Fin 8192) (g : Fin 128) (k : Fin 128) : idx_main_v16 (ridx_main_v17 (ix2 i g) k) = ix2 g k :=
  funext fun a => Fin.ext (by match a with | ⟨0, _⟩ => rfl | ⟨1, _⟩ => rfl)

theorem idx19_eq (i : Fin 8192) (g : Fin 128) : idx_main_v18 (idx_main_v19 (ix2 i g)) = ix1 g :=
  funext fun a => Fin.ext (by match a with | ⟨0, _⟩ => rfl)

/-- The linear layer with its bias, on the aggregated features. -/
theorem v20_at (x0 : (⟨S8192x128, .f32⟩ : BufTy).Contents (Elt Ideal))
    (x1 : (⟨S8192x8192, .f32⟩ : BufTy).Contents (Elt Ideal))
    (x2 : (⟨S128x128, .f32⟩ : BufTy).Contents (Elt Ideal)) (x3 : (⟨S128, .f32⟩ : BufTy).Contents (Elt Ideal))
    (i : Fin 8192) (g : Fin 128) :
    val_main_v20 (F := Ideal) x0 x1 x2 x3 (ix2 i g)
      = Spec.lin (Spec.aggR (Spec.mat2 x0) (Spec.mat2 x1)) (Spec.mat2 x2) (Spec.vec1 x3) i g := by
  show _ = (∑ f : Fin 128, Spec.aggR (Spec.mat2 x0) (Spec.mat2 x1) i f * x2 (ix2 g f)) + x3 (ix1 g)
  rw [val_main_v20_apply, val_main_v17_apply, val_main_v19_apply, val_main_v18_apply, idx19_eq, Ideal.addf_def]
  refine congrArg (· + x3 (ix1 g)) (Finset.sum_congr rfl fun k _ => ?_)
  rw [lidx17_eq, v15_at, val_main_v16_apply, ridx17_eq]

/-! ## The tail: each row over the larger of its Euclidean norm and the floor -/

theorem idx24_norm_eq (i : Fin 8192) (g : Fin 128) (k : Fin 128) :
    idx_main_call0_v1 (idx_main_call0_v2 (idx_main_v24 (ix2 i g))) k = ix2 i k :=
  funext fun a => Fin.ext (by match a with | ⟨0, _⟩ => rfl | ⟨1, _⟩ => rfl)

theorem v23_at (x0 : (⟨S8192x128, .f32⟩ : BufTy).Contents (Elt Ideal))
    (x1 : (⟨S8192x8192, .f32⟩ : BufTy).Contents (Elt Ideal))
    (x2 : (⟨S128x128, .f32⟩ : BufTy).Contents (Elt Ideal)) (x3 : (⟨S128, .f32⟩ : BufTy).Contents (Elt Ideal))
    (i : Fin 8192) (g : Fin 128) :
    val_main_v23 (F := Ideal) x0 x1 x2 x3 (idx_main_v24 (ix2 i g))
      = max (Ideal.sqrt (∑ g' : Fin 128,
          Spec.lin (Spec.aggR (Spec.mat2 x0) (Spec.mat2 x1)) (Spec.mat2 x2) (Spec.vec1 x3) i g'
            * Spec.lin (Spec.aggR (Spec.mat2 x0) (Spec.mat2 x1)) (Spec.mat2 x2) (Spec.vec1 x3) i g')) Spec.eps := by
  rw [val_main_v23_apply, val_main_v21_apply, val_main_call0_v2_apply, val_main_call0_v1_apply,
    val_main_call0_cst_apply, Ideal.ofBits_def, Ideal.ofBits_zero_f32, zero_add, val_main_v22_apply,
    val_main_cst_0_apply, Ideal.ofBits_def, Ideal.hostUnary_sqrt_def, Ideal.maximumf_def, Spec.eps]
  refine congrArg (fun s => max (Ideal.sqrt s) _) (Finset.sum_congr rfl fun k _ => ?_)
  rw [idx24_norm_eq, val_main_call0_v0_apply, v20_at, Ideal.mulf_def]

/-- The reference program's result is `Spec.outR` of its inputs. -/
theorem ref_eq (x0 : (⟨Cert.ReferenceIdeal.S8192x128, .f32⟩ : BufTy).Contents (Elt Ideal))
    (x1 : (⟨Cert.ReferenceIdeal.S8192x8192, .f32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Cert.ReferenceIdeal.Read.val_main_v25 (F := Ideal) x0 x1 x2 x3
      = fun i => Cert.Spec.outR (Cert.Spec.mat2 x0) (Cert.Spec.mat2 x1) (Cert.Spec.mat2 x2) (Cert.Spec.vec1 x3) (i 0) (i 1) := by
  funext i
  obtain ⟨a, b, rfl⟩ : ∃ a b, i = ix2 a b := ⟨i 0, i 1, ValueIdx.eq_ix2 i⟩
  show _ = Ideal.div (Spec.lin (Spec.aggR (Spec.mat2 x0) (Spec.mat2 x1)) (Spec.mat2 x2) (Spec.vec1 x3) a b)
    (max (Ideal.sqrt (∑ g' : Fin 128,
        Spec.lin (Spec.aggR (Spec.mat2 x0) (Spec.mat2 x1)) (Spec.mat2 x2) (Spec.vec1 x3) a g'
          * Spec.lin (Spec.aggR (Spec.mat2 x0) (Spec.mat2 x1)) (Spec.mat2 x2) (Spec.vec1 x3) a g')) Spec.eps)
  rw [val_main_v25_apply, val_main_v24_apply, v20_at, v23_at, Ideal.hostDivf_def]

end Cert.RefValue

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.PreFacts.lean ====
/-
  What the printed precondition says about the inputs, on the extended reals.

  The precondition is the conjunction of five one-bit results: four `jnp.all(|a| < inf)`, one per input, and
  `jnp.all(jnp.sum(adj + eye, axis=-1) > 0)`. From its being 1 we read: every entry of `x` and of `adj` is a real
  number, and every row sum of `adj + I` is positive. The identity matrix is printed as the float conversion of the
  one-bit comparison "row position + 0 = column position" on 32-bit words; below 2³² the words are equal exactly when
  the positions are, so the entry is 1 on the diagonal and 0 off it.
-/
import proofs.«114102_j90838558311239_1_alg».proof.Pre_finite_inputs
import proofs.«114102_j90838558311239_1_alg».proof.Proof.Gen.Pre_finite_inputs
import proofs.«114102_j90838558311239_1_alg».proof.Proof.LibFinite
import proofs.«114102_j90838558311239_1_alg».proof.Proof.Spec
import Idealize.ShloMosaic.Lib.ReduceAll
import Idealize.ShloMosaic.Lib.Affine
import Idealize.ShloMosaic.Lib.IdealHost
import Idealize.ShloMosaic.Lib.ValueIdx
import Idealize.ShloMosaic.Lib.StableHlo.Predicate
import Idealize.ShloMosaic.PureOps.Ideal.Laws

noncomputable section

namespace Cert.PreFacts

open Idealize.ShloMosaic
open Cert.Pre_finite_inputs
open scoped BigOperators

/-! ## The identity matrix's entry, on words -/

/-- Words of positions below 2³² are equal only for equal positions. -/
theorem ofNat32_inj (a b : Nat) (ha : a < 2 ^ 32) (hb : b < 2 ^ 32) (h : BitVec.ofNat 32 a = BitVec.ofNat 32 b) : a = b := by
  have h' := congrArg BitVec.toNat h
  rw [BitVec.toNat_ofNat, BitVec.toNat_ofNat, Nat.mod_eq_of_lt ha, Nat.mod_eq_of_lt hb] at h'
  exact h'

/-- The printed identity-matrix entry at positions `a`, `b`: 1 when they are equal, else 0. -/
theorem uitofp_eye (a b : Nat) (ha : a < 2 ^ 32) (hb : b < 2 ^ 32) :
    FloatOps.uitofp (F := Ideal) .f32 (IntOp.cmpi .eq (IntOp.addi (BitVec.ofNat 32 a) 0#32) (BitVec.ofNat 32 b))
      = if a = b then (1 : EReal) else 0 := by
  have hz : IntOp.addi (BitVec.ofNat 32 a) 0#32 = BitVec.ofNat 32 a := BitVec.add_zero _
  rw [hz]
  by_cases hab : a = b
  · subst hab
    rw [if_pos rfl, StableHlo.Predicate.cmpi_eq_iff.2 rfl]
    show (((1#1 : BitVec 1).toNat : ℝ) : EReal) = 1
    simp
  · rw [if_neg hab]
    have hne : IntOp.cmpi .eq (BitVec.ofNat 32 a) (BitVec.ofNat 32 b) ≠ 1#1 := fun h =>
      hab (ofNat32_inj a b ha hb (StableHlo.Predicate.cmpi_eq_iff.1 h))
    rw [ValueIdx.eq_zero_of_ne_one hne]
    show (((0#1 : BitVec 1).toNat : ℝ) : EReal) = 0
    simp

section

variable [hP : Cert.Pre_finite_inputs.Facts]
open Cert.Pre_finite_inputs.Facts

/-! ## The array `adj + eye` and its row sums -/

/-- The printed `adj + eye`. -/
abbrev adjEye (x1 : FVec Ideal S8192x8192 .f32) : FVec Ideal S8192x8192 .f32 :=
  addf x1 (uitofp .f32 (cmpi .eq
    (addi (iotaInDim S8192x8192 32 0) (broadcastInDim S8192x8192 ![] bcast_S_S8192x8192 (constantI S_ 32 0#32)))
    (iotaInDim S8192x8192 32 1)))

/-- Its entry at (i, j) is the adjacency entry plus the identity's. -/
theorem adjEye_apply (x1 : FVec Ideal S8192x8192 .f32) (i j : Fin 8192) :
    adjEye x1 (ValueIdx.ix2 i j) = Cert.Spec.adjI (Cert.Spec.mat2 x1) i j := by
  show x1 (ValueIdx.ix2 i j) + FloatOps.uitofp (F := Ideal) .f32 (IntOp.cmpi .eq
      (IntOp.addi (BitVec.ofNat 32 i.val)
        (broadcastInDim S8192x8192 ![] bcast_S_S8192x8192 (constantI S_ 32 0#32) (ValueIdx.ix2 i j)))
      (BitVec.ofNat 32 j.val)) = _
  rw [ValueIdx.broadcastInDim_scalar_apply]
  show x1 (ValueIdx.ix2 i j) + FloatOps.uitofp (F := Ideal) .f32 (IntOp.cmpi .eq
      (IntOp.addi (BitVec.ofNat 32 i.val) 0#32) (BitVec.ofNat 32 j.val)) = _
  rw [uitofp_eye i.val j.val (by have := i.isLt; omega) (by have := j.isLt; omega)]
  unfold Cert.Spec.adjI
  by_cases hij : i = j
  · rw [if_pos hij, if_pos (congrArg Fin.val hij)]
  · rw [if_neg hij, if_neg (fun h => hij (Fin.ext h))]

/-- The printed row sum at row `i` is the sum over the columns of `adj + I`. -/
theorem rowsum_apply (x1 : FVec Ideal S8192x8192 .f32) (i : Fin 8192) :
    Host.reduceAdd (adjEye x1) (constant S_ .f32 0x00000000#32) reducesTo_S8192x8192_S8192_d1 h_S_ (ValueIdx.ix1 i)
      = ∑ j : Fin 8192, Cert.Spec.adjI (Cert.Spec.mat2 x1) i j := by
  generalize hY : adjEye x1 = Y
  rw [ValueIdx.hostReduceAdd_apply, Ideal.hostReduceAdd_single reducesTo_S8192x8192_S8192_d1 (by decide)]
  show Ideal.ofBits .f32 0x00000000#32 + _ = _
  rw [Ideal.ofBits_zero_f32, zero_add]
  refine Finset.sum_congr rfl fun k _ => ?_
  rw [← adjEye_apply x1 i k, hY]
  exact congrArg Y (funext fun a => Fin.ext (by match a with | ⟨0, _⟩ => rfl | ⟨1, _⟩ => rfl))

/-! ## The precondition read -/

theorem of_pre (x0 : FVec Ideal Cert.Pre_finite_inputs.S8192x128 .f32) (x1 : FVec Ideal Cert.Pre_finite_inputs.S8192x8192 .f32)
    (x2 : FVec Ideal Cert.Pre_finite_inputs.S128x128 .f32) (x3 : FVec Ideal Cert.Pre_finite_inputs.S128 .f32)
    (h : Cert.Pre_finite_inputs.fn (F := Ideal) x0 x1 x2 x3 = (fun _ => 1#1)) :
    (∀ i j, ∃ r : ℝ, Cert.Spec.mat2 x0 i j = (r : EReal)) ∧ (∀ i j, ∃ r : ℝ, Cert.Spec.mat2 x1 i j = (r : EReal))
      ∧ (∀ i : Fin 8192, 0 < ∑ j : Fin 8192, Cert.Spec.adjI (Cert.Spec.mat2 x1) i j) := by
  have h0 := congrFun h ValueIdx.ix0
  dsimp only [Cert.Pre_finite_inputs.fn, Cert.Pre_finite_inputs.fn_part1, andi] at h0
  obtain ⟨h1234, h5⟩ := IntOp.andi_eq_one.1 h0
  obtain ⟨h123, -⟩ := IntOp.andi_eq_one.1 h1234
  obtain ⟨h12, -⟩ := IntOp.andi_eq_one.1 h123
  obtain ⟨h1, h2⟩ := IntOp.andi_eq_one.1 h12
  refine ⟨fun i j => ?_, fun i j => ?_, fun i => ?_⟩
  · exact Cert.LibFinite.real_of_all x0 bcast_S_S8192x128 reducesTo_S8192x128_S_d0_1 h_S_ _ h1 (ValueIdx.ix2 i j)
  · exact Cert.LibFinite.real_of_all x1 bcast_S_S8192x8192 reducesTo_S8192x8192_S_d0_1 h_S_ _ h2 (ValueIdx.ix2 i j)
  · have e := Host.reduce_andi_all _ _ _ _ _ h5 (ValueIdx.ix1 i)
    rw [ValueIdx.cmpf_apply, ValueIdx.broadcastInDim_scalar_apply] at e
    have e1 : Ideal.cmp .ogt
        (Host.reduceAdd (adjEye x1) (constant S_ .f32 0x00000000#32) reducesTo_S8192x8192_S8192_d1 h_S_ (ValueIdx.ix1 i))
        (Ideal.ofBits .f32 0x00000000#32) = 1#1 := e
    rw [rowsum_apply, Ideal.ofBits_zero_f32] at e1
    have e2 : BitVec.ofBool (decide ((0 : EReal) < ∑ j : Fin 8192, Cert.Spec.adjI (Cert.Spec.mat2 x1) i j)) = 1#1 := e1
    exact of_decide_eq_true ((StableHlo.Predicate.ofBool_eq_one_iff _).1 e2)

end

end Cert.PreFacts

end
-- ==== Proof.Algebra.lean ====
/-
  Pure extended-real algebra: on real inputs whose every degree is positive, the kernel's arrangement of the
  normalised aggregation equals the reference's.

  Distributivity and the exchange of a factor with a sum fail on the extended reals at the infinities, so every
  identity is proved on the real numbers and transported along the coercion: the degree is a positive real, hence
  its inverse square root is a real, and both aggregations are coercions of real expressions.
-/
import proofs.«114102_j90838558311239_1_alg».proof.Proof.Spec
import Mathlib.Data.EReal.Basic
import Mathlib.Algebra.BigOperators.Ring.Finset
import Mathlib.Algebra.BigOperators.Group.Finset.Basic
import Mathlib.Algebra.BigOperators.Group.Finset.Piecewise

noncomputable section

namespace Cert.Algebra

open Idealize.ShloMosaic
open Cert.Spec

/-! ## The coercion and finite sums -/

/-- The coercion of a finite sum of reals is the sum of the coercions. -/
theorem coe_sum {ι : Type*} (s : Finset ι) (g : ι → ℝ) :
    ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- The diagonal indicator on the extended reals is the coercion of the real one. -/
theorem coe_ite_one {ι : Type*} [DecidableEq ι] (i j : ι) :
    (if i = j then (1 : EReal) else 0) = ((if i = j then (1 : ℝ) else 0 : ℝ) : EReal) := by
  split_ifs <;> simp

/-! ## The degree -/

/-- Adding the identity to a matrix adds one to each row sum (in any additive commutative monoid with a one). -/
theorem sum_add_diag {ι M : Type*} [Fintype ι] [DecidableEq ι] [AddCommMonoid M] [One M] (a : ι → M) (i : ι) :
    ∑ j, (a j + (if i = j then (1 : M) else 0)) = (∑ j, a j) + 1 := by
  rw [Finset.sum_add_distrib]
  congr 1
  simp

/-- The reference's degree is the kernel's. -/
theorem sum_adjI (A : Fin 8192 → Fin 8192 → EReal) (i : Fin 8192) :
    ∑ j, adjI A i j = (∑ j, A i j) + 1 := by
  unfold adjI
  exact sum_add_diag (fun j => A i j) i

/-- Hence the two inverse square-root degrees agree. -/
theorem dinvK_eq_dinvR (A : Fin 8192 → Fin 8192 → EReal) (i : Fin 8192) : dinvK A i = dinvR A i := by
  unfold dinvK dinvR
  rw [sum_adjI]

/-! ## The identity on the reals -/

/-- `d_i · (Σ_j a_ij · (d_j · x_j) + d_i · x_i) = Σ_j ((a_ij + δ_ij) · d_i · d_j) · x_j` on the reals. -/
theorem agg_real {ι : Type*} [Fintype ι] [DecidableEq ι] (a d x : ι → ℝ) (i : ι) :
    d i * ((∑ j, a j * (d j * x j)) + d i * x i)
      = ∑ j, (((a j + (if i = j then (1 : ℝ) else 0)) * d i) * d j) * x j := by
  have h : ∀ j, (((a j + (if i = j then (1 : ℝ) else 0)) * d i) * d j) * x j
      = d i * (a j * (d j * x j)) + (if i = j then d i * (d j * x j) else 0) := by
    intro j
    split_ifs <;> ring
  rw [Finset.sum_congr rfl (fun j _ => h j), Finset.sum_add_distrib, ← Finset.mul_sum, Finset.sum_ite_eq]
  simp only [Finset.mem_univ, if_true]
  ring

/-! ## Transport to the extended reals -/

/-- The same identity for coercions of reals, each product and sum taken on the extended reals. -/
theorem agg_coe {ι : Type*} [Fintype ι] [DecidableEq ι] (a d x : ι → ℝ) (i : ι) :
    (d i : EReal) * ((∑ j, (a j : EReal) * ((d j : EReal) * (x j : EReal))) + (d i : EReal) * (x i : EReal))
      = ∑ j, ((((a j : EReal) + (if i = j then (1 : EReal) else 0)) * (d i : EReal)) * (d j : EReal)) * (x j : EReal) := by
  simp only [coe_ite_one, ← EReal.coe_mul, ← EReal.coe_add, ← coe_sum]
  exact congrArg _ (agg_real a d x i)

/-- On a positive real the inverse square root is a real. -/
theorem rsqrt_real_of_pos {r : ℝ} (hr : 0 < r) : ∃ d : ℝ, Ideal.rsqrt (r : EReal) = (d : EReal) := by
  refine ⟨(Real.sqrt r)⁻¹, ?_⟩
  rw [Ideal.rsqrt_coe, if_neg (not_lt.mpr hr.le), if_neg hr.ne']

/-- The two aggregations agree on real inputs with positive degrees. -/
theorem aggK_eq_aggR (X : Fin 8192 → Fin 128 → EReal) (A : Fin 8192 → Fin 8192 → EReal)
    (hX : ∀ i j, ∃ r : ℝ, X i j = (r : EReal)) (hA : ∀ i j, ∃ r : ℝ, A i j = (r : EReal))
    (hdeg : ∀ i : Fin 8192, 0 < ∑ j : Fin 8192, adjI A i j) :
    aggK X A = aggR X A := by
  choose x hx using hX
  choose a ha using hA
  -- each degree is the coercion of a positive real
  have hdegR : ∀ i, ∑ j, adjI A i j = (((∑ j, a i j) + 1 : ℝ) : EReal) := by
    intro i
    rw [sum_adjI, EReal.coe_add, coe_sum, EReal.coe_one]
    simp only [ha]
  -- so each inverse square-root degree is a real
  have hd : ∀ i, ∃ d : ℝ, dinvR A i = (d : EReal) := by
    intro i
    have hpos : (0 : EReal) < (((∑ j, a i j) + 1 : ℝ) : EReal) := by
      rw [← hdegR i]
      exact hdeg i
    unfold dinvR
    rw [hdegR i]
    exact rsqrt_real_of_pos (EReal.coe_pos.mp hpos)
  choose d hd using hd
  funext i f
  unfold aggK aggR adjI
  simp only [dinvK_eq_dinvR, hd, ha, hx]
  exact agg_coe (fun j => a i j) d (fun j => x j f) i

/-! ## The results -/

theorem outK_eq_outR (X : Fin 8192 → Fin 128 → EReal) (A : Fin 8192 → Fin 8192 → EReal)
    (Wt : Fin 128 → Fin 128 → EReal) (B : Fin 128 → EReal)
    (hX : ∀ i j, ∃ r : ℝ, X i j = (r : EReal)) (hA : ∀ i j, ∃ r : ℝ, A i j = (r : EReal))
    (hdeg : ∀ i : Fin 8192, 0 < ∑ j : Fin 8192, Cert.Spec.adjI A i j) :
    Cert.Spec.outK X A Wt B = Cert.Spec.outR X A Wt B := by
  unfold Cert.Spec.outK Cert.Spec.outR
  rw [aggK_eq_aggR X A hX hA hdeg]

end Cert.Algebra

end
-- ==== Proof.lean ====
/-
  The certificate of a graph-convolution layer: a Pallas kernel in two passes over the adjacency matrix against its
  jnp reference.

  The reference adds the identity to the adjacency matrix, scales the sum on both sides by the inverse square roots
  of its row sums, aggregates the features with it, applies a linear layer with bias and divides every row by the
  larger of its Euclidean norm and a small floor. The kernel's first pass accumulates the row sums of the adjacency
  matrix itself over four column blocks and stores the reciprocal square root of the sum plus one; the host scales the
  features by it; the second pass accumulates the block products of the adjacency matrix with the scaled features,
  adds the self-loop term `d_i · x_i`, scales by `d_i`, and ends with the same linear layer, bias and normalisation.

  On the extended reals the two arrangements agree where every input entry is a real number and every row sum of the
  adjacency matrix plus identity is positive (the precondition: the domain of the reference's reciprocal square
  root): the row sum of `A + I` is the row sum of `A` plus one in any commutative monoid; a positive real degree has a
  real reciprocal square root; and with every factor real, moving the scale factors across the aggregation sum and
  splitting off the identity's term is distributivity in the real numbers. The common tail is never opened.

  The frames of the two kernel programs are one text, read at the word-level instance and at the extended reals: each
  region's accumulator is carried from grid point to grid point in the region's invariant.
-/
import proofs.«114102_j90838558311239_1_alg».proof.Defs
import proofs.«114102_j90838558311239_1_alg».proof.Proof.Gen.Kernel
import proofs.«114102_j90838558311239_1_alg».proof.Proof.Gen.KernelIdeal
import proofs.«114102_j90838558311239_1_alg».proof.Proof.Gen.ReferenceIdeal
import proofs.«114102_j90838558311239_1_alg».proof.Proof.Gen.Pre_finite_inputs
import proofs.«114102_j90838558311239_1_alg».proof.Proof.Gen.ReferenceIdeal.Run
import proofs.«114102_j90838558311239_1_alg».proof.Proof.Gen.ReferenceIdeal.Read
import proofs.«114102_j90838558311239_1_alg».proof.Proof.K.Run
import proofs.«114102_j90838558311239_1_alg».proof.Proof.KI.Run
import proofs.«114102_j90838558311239_1_alg».proof.Proof.KI.KValue
import proofs.«114102_j90838558311239_1_alg».proof.Proof.RefValue
import proofs.«114102_j90838558311239_1_alg».proof.Proof.PreFacts
import proofs.«114102_j90838558311239_1_alg».proof.Proof.Algebra

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs to the end and leaves its arguments as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition both programs end with the reference's arrangement of the inputs in their result. -/
theorem algebraic : Cert.algebraic_KernelIdeal_ReferenceIdeal := by
  intro m ρ m' ρ' hpre hagree
  refine ⟨fun c => fun i => Cert.Spec.outR (Cert.KernelIdeal.KValue.Xm m c) (Cert.KernelIdeal.KValue.Am m c) (Cert.KernelIdeal.KValue.Wm m c) (Cert.KernelIdeal.KValue.Bm m c) ⟨(i 0).val, (i 0).isLt⟩ ⟨(i 1).val, (i 1).isLt⟩, ?_, ?_⟩
  · refine (θ_run Cert.KernelIdeal.defs _ _).mono (fun r h c => ⟨(h c).1.trans ?_, (h c).2⟩) (Cert.KernelIdeal.Run.run_main m ρ)
    rw [Cert.KernelIdeal.KValue.result_eq]
    obtain ⟨hX, hA, hdeg⟩ := Cert.PreFacts.of_pre _ _ _ _ (hpre c)
    rw [Cert.Algebra.outK_eq_outR (Cert.KernelIdeal.KValue.Xm m c) (Cert.KernelIdeal.KValue.Am m c) (Cert.KernelIdeal.KValue.Wm m c) (Cert.KernelIdeal.KValue.Bm m c) hX hA hdeg]
  · refine (θ_run Cert.ReferenceIdeal.defs _ _).mono (fun r h c => ⟨(h c).1.trans ?_, (h c).2⟩) (Cert.ReferenceIdeal.Value.run (F := Ideal) m' ρ')
    rw [Cert.ReferenceIdeal.Read.val_main_v25_eq, (hagree c).1, (hagree c).2.1, (hagree c).2.2.1, (hagree c).2.2.2, Cert.RefValue.ref_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
